-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x59 : Shape := ⟨2, ![1000000, 59]⟩
abbrev S1000000x4x3 : Shape := ⟨3, ![1000000, 4, 3]⟩
abbrev S12x59 : Shape := ⟨2, ![12, 59]⟩
abbrev S12 : Shape := ⟨1, ![12]⟩
abbrev S_ : Shape := ⟨0, ![]⟩

class Facts : Prop where
  bcast_S_S1000000x59 : S_.BroadcastsInDim S1000000x59 (![] : Fin 0 → Fin S1000000x59.rank)
  reducesTo_S1000000x59_S_d0_1 : S1000000x59.ReducesTo [0, 1] S_
  h_S_ : 0 < S_.numel
  bcast_S_S12x59 : S_.BroadcastsInDim S12x59 (![] : Fin 0 → Fin S12x59.rank)
  reducesTo_S12x59_S_d0_1 : S12x59.ReducesTo [0, 1] S_
  bcast_S_S12 : S_.BroadcastsInDim S12 (![] : Fin 0 → Fin S12.rank)
  reducesTo_S12_S_d0 : S12.ReducesTo [0] S_
  bcast_S_S1000000x4x3 : S_.BroadcastsInDim S1000000x4x3 (![] : Fin 0 → Fin S1000000x4x3.rank)
  reducesTo_S1000000x4x3_S_d0_1_2 : S1000000x4x3.ReducesTo [0, 1, 2] S_

variable [Facts]

def fn_part1 {F : FTy → Type} [FloatOps F] (main_arg1 : IVec S1000000x4x3 32) (main_v13 : IVec S_ 1) (main_v15 : IVec S1000000x4x3 1) (main_c_5 : IVec S_ 1) : IVec S_ 1 :=
  let main_v16 : IVec S_ 1 := (fun x v => Host.reduce IntOp.andi x v reducesTo_S1000000x4x3_S_d0_1_2 h_S_) main_v15 main_c_5
  let main_v17 : IVec S_ 1 := andi main_v13 main_v16
  let main_c_6 : IVec S_ 32 := constantI S_ 32 12#32
  let main_v18 : IVec S1000000x4x3 32 := broadcastInDim S1000000x4x3 ![] bcast_S_S1000000x4x3 main_c_6
  let main_v19 : IVec S1000000x4x3 1 := cmpi .slt main_arg1 main_v18
  let main_c_7 : IVec S_ 1 := constantI S_ 1 1#1
  let main_v20 : IVec S_ 1 := (fun x v => Host.reduce IntOp.andi x v reducesTo_S1000000x4x3_S_d0_1_2 h_S_) main_v19 main_c_7
  let main_v21 : IVec S_ 1 := andi main_v17 main_v20
  main_v21

def fn {F : FTy → Type} [FloatOps F] (main_arg0 : FVec F S1000000x59 .f32) (main_arg1 : IVec S1000000x4x3 32) (main_arg2 : FVec F S12x59 .f32) (main_arg3 : FVec F S12 .f32) : IVec S_ 1 :=
  let main_v0 : FVec F S1000000x59 .f32 := Host.absf main_arg0
  let main_cst : FVec F S_ .f32 := constant S_ .f32 0x7F800000#32
  let main_v1 : FVec F S1000000x59 .f32 := broadcastInDim S1000000x59 ![] bcast_S_S1000000x59 main_cst
  let main_v2 : IVec S1000000x59 1 := cmpf .olt main_v0 main_v1
  let main_c : IVec S_ 1 := constantI S_ 1 1#1
  let main_v3 : IVec S_ 1 := (fun x v => Host.reduce IntOp.andi x v reducesTo_S1000000x59_S_d0_1 h_S_) main_v2 main_c
  let main_v4 : FVec F S12x59 .f32 := Host.absf main_arg2
  let main_cst_0 : FVec F S_ .f32 := constant S_ .f32 0x7F800000#32
  let main_v5 : FVec F S12x59 .f32 := broadcastInDim S12x59 ![] bcast_S_S12x59 main_cst_0
  let main_v6 : IVec S12x59 1 := cmpf .olt main_v4 main_v5
  let main_c_1 : IVec S_ 1 := constantI S_ 1 1#1
  let main_v7 : IVec S_ 1 := (fun x v => Host.reduce IntOp.andi x v reducesTo_S12x59_S_d0_1 h_S_) main_v6 main_c_1
  let main_v8 : IVec S_ 1 := andi main_v3 main_v7
  let main_v9 : FVec F S12 .f32 := Host.absf main_arg3
  let main_cst_2 : FVec F S_ .f32 := constant S_ .f32 0x7F800000#32
  let main_v10 : FVec F S12 .f32 := broadcastInDim S12 ![] bcast_S_S12 main_cst_2
  let main_v11 : IVec S12 1 := cmpf .olt main_v9 main_v10
  let main_c_3 : IVec S_ 1 := constantI S_ 1 1#1
  let main_v12 : IVec S_ 1 := (fun x v => Host.reduce IntOp.andi x v reducesTo_S12_S_d0 h_S_) main_v11 main_c_3
  let main_v13 : IVec S_ 1 := andi main_v8 main_v12
  let main_c_4 : IVec S_ 32 := constantI S_ 32 0#32
  let main_v14 : IVec S1000000x4x3 32 := broadcastInDim S1000000x4x3 ![] bcast_S_S1000000x4x3 main_c_4
  let main_v15 : IVec S1000000x4x3 1 := cmpi .sge main_arg1 main_v14
  let main_c_5 : IVec S_ 1 := constantI S_ 1 1#1
  fn_part1 (F := F) main_arg1 main_v13 main_v15 main_c_5
-- ==== Kernel.lean ====
abbrev S1000000x59 : Shape := ⟨2, ![1000000, 59]⟩
abbrev S1000000x4x3 : Shape := ⟨3, ![1000000, 4, 3]⟩
abbrev S12x59 : Shape := ⟨2, ![12, 59]⟩
abbrev S12 : Shape := ⟨1, ![12]⟩
abbrev S1000000x12 : Shape := ⟨2, ![1000000, 12]⟩
abbrev S59x12 : Shape := ⟨2, ![59, 12]⟩
abbrev S1x12 : Shape := ⟨2, ![1, 12]⟩
abbrev S1000000x4 : Shape := ⟨2, ![1000000, 4]⟩
abbrev S8192x59 : Shape := ⟨2, ![8192, 59]⟩
abbrev S8192x12 : Shape := ⟨2, ![8192, 12]⟩
abbrev S8192x4 : Shape := ⟨2, ![8192, 4]⟩
abbrev S8192x1 : Shape := ⟨2, ![8192, 1]⟩
abbrev S8192 : Shape := ⟨1, ![8192]⟩

abbrev nBuf : Space → Nat
  | .hbm => 8
  | .vmem => 8
  | .smem => 0
  | _ => 0

abbrev bufTy : (tb : Table) → Fin (tcTables nBuf tb) → BufTy
  | .hbm, ⟨0, _⟩ => ⟨S1000000x59, .f32⟩
  | .hbm, ⟨1, _⟩ => ⟨S1000000x4x3, .i32⟩
  | .hbm, ⟨2, _⟩ => ⟨S12x59, .f32⟩
  | .hbm, ⟨3, _⟩ => ⟨S12, .f32⟩
  | .hbm, ⟨4, _⟩ => ⟨S1000000x12, .i32⟩
  | .hbm, ⟨5, _⟩ => ⟨S59x12, .f32⟩
  | .hbm, ⟨6, _⟩ => ⟨S1x12, .f32⟩
  | .hbm, ⟨7, _⟩ => ⟨S1000000x4, .f32⟩
  | .local _ .vmem, ⟨0, _⟩ => ⟨S8192x59, .f32⟩
  | .local _ .vmem, ⟨1, _⟩ => ⟨S8192x59, .f32⟩
  | .local _ .vmem, ⟨2, _⟩ => ⟨S8192x12, .i32⟩
  | .local _ .vmem, ⟨3, _⟩ => ⟨S8192x12, .i32⟩
  | .local _ .vmem, ⟨4, _⟩ => ⟨S59x12, .f32⟩
  | .local _ .vmem, ⟨5, _⟩ => ⟨S1x12, .f32⟩
  | .local _ .vmem, ⟨6, _⟩ => ⟨S8192x4, .f32⟩
  | .local _ .vmem, ⟨7, _⟩ => ⟨S8192x4, .f32⟩
  | _, _ => ⟨S1000000x59, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x59 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x12 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S59x12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x12 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8192x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1000000x4x3_S1000000x12 : S1000000x4x3.ShapeCasts S1000000x12
  transposes_S12x59_S59x12_1_0 : S12x59.Transposes [1, 0] S59x12
  shapeCasts_S12_S1x12 : S12.ShapeCasts S1x12
  inb_S8192x59_S8192x59_0_0 : ∀ a, (![0, 0] : Fin 2 → Nat) a + S8192x59.size a ≤ S8192x59.size a
  h_S8192x59 : 0 < S8192x59.numel
  bitsLt_bf16_f32 : FTy.bits .bf16 < FTy.bits .f32
  inb_S59x12_S59x12_0_0 : ∀ a, (![0, 0] : Fin 2 → Nat) a + S59x12.size a ≤ S59x12.size a
  h_S59x12 : 0 < S59x12.numel
  shapeCasts_S59x12_S59x12 : S59x12.ShapeCasts S59x12
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S1x12_S8192x12 : S1x12.Broadcasts S8192x12
  inb_S8192x12_S8192x12_0_0 : ∀ a, (![0, 0] : Fin 2 → Nat) a + S8192x12.size a ≤ S8192x12.size a
  h_S8192x12 : 0 < S8192x12.numel
  shapeCasts_S8192x12_S8192x12 : S8192x12.ShapeCasts S8192x12
  iota_S1x12_d1_w32 : S1x12.Iotas .tc 32 [1]
  slices_S8192x12_o0_0_S8192x1 : S8192x12.Slices ![0, 0] S8192x1
  broadcasts_S8192x1_S8192x12 : S8192x1.Broadcasts S8192x12
  natLt_1_32 : 1 < 32
  reduces_S8192x12_S8192 : S8192x12.Reduces [1] S8192
  shapeCasts_S8192_S8192x1 : S8192.ShapeCasts S8192x1
  slices_S8192x12_o0_1_S8192x1 : S8192x12.Slices ![0, 1] S8192x1
  slices_S8192x12_o0_2_S8192x1 : S8192x12.Slices ![0, 2] S8192x1
  slices_S8192x12_o0_3_S8192x1 : S8192x12.Slices ![0, 3] S8192x1
  slices_S8192x12_o0_4_S8192x1 : S8192x12.Slices ![0, 4] S8192x1
  slices_S8192x12_o0_5_S8192x1 : S8192x12.Slices ![0, 5] S8192x1
  slices_S8192x12_o0_6_S8192x1 : S8192x12.Slices ![0, 6] S8192x1
  slices_S8192x12_o0_7_S8192x1 : S8192x12.Slices ![0, 7] S8192x1
  slices_S8192x12_o0_8_S8192x1 : S8192x12.Slices ![0, 8] S8192x1
  slices_S8192x12_o0_9_S8192x1 : S8192x12.Slices ![0, 9] S8192x1
  slices_S8192x12_o0_10_S8192x1 : S8192x12.Slices ![0, 10] S8192x1
  slices_S8192x12_o0_11_S8192x1 : S8192x12.Slices ![0, 11] S8192x1
  concatenates_S8192x1_S8192x1_S8192x1_S8192x1_S8192x4_d1 : Shape.Concatenates [S8192x1, S8192x1, S8192x1, S8192x1] S8192x4 1
  inb_S8192x4_S8192x4_0_0 : ∀ a, (![0, 0] : Fin 2 → Nat) a + S8192x4.size a ≤ S8192x4.size a
  h_S8192x4 : 0 < S8192x4.numel
  dot_S8192x59_S59x12_S8192x12_1_0_0_1_n_n_wf : DotDims.WF S8192x59 S59x12 S8192x12 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S8192x59.size a < S1000000x59.size a
  hwx0_0 : ∀ i : grid0.Coords, EltTy.bits .f32 = 32 ∨ (Rect.unit (s := S1000000x59) (fun a => cc0_transform_0 i a * S8192x59.size a) (fun a => (Pipeline.Clip.of (cc0_transform_0 i a) (S8192x59.size a) (S1000000x59.size a)).extent (S8192x59.size a)) fun a => Pipeline.Clip.inb (Pipeline.Clip.ok_of (hstart0_0 i a))).WholeWords (EltTy.packing .f32)
  hwxs0_0 : ∀ i : grid0.Coords, EltTy.bits .f32 = 32 ∨ (Rect.unit (s := S8192x59) (fun _ => 0) (fun a => (Pipeline.Clip.of (cc0_transform_0 i a) (S8192x59.size a) (S1000000x59.size a)).extent (S8192x59.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S8192x12.size a < S1000000x12.size a
  hwx0_1 : ∀ i : grid0.Coords, EltTy.bits .i32 = 32 ∨ (Rect.unit (s := S1000000x12) (fun a => cc0_transform_1 i a * S8192x12.size a) (fun a => (Pipeline.Clip.of (cc0_transform_1 i a) (S8192x12.size a) (S1000000x12.size a)).extent (S8192x12.size a)) fun a => Pipeline.Clip.inb (Pipeline.Clip.ok_of (hstart0_1 i a))).WholeWords (EltTy.packing .i32)
  hwxs0_1 : ∀ i : grid0.Coords, EltTy.bits .i32 = 32 ∨ (Rect.unit (s := S8192x12) (fun _ => 0) (fun a => (Pipeline.Clip.of (cc0_transform_1 i a) (S8192x12.size a) (S1000000x12.size a)).extent (S8192x12.size a)) fun a => (Nat.zero_add _).trans_le (Pipeline.Clip.extent_le (Pipeline.Clip.ok_of (hstart0_1 i a)))).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S59x12.size a ≤ S59x12.size a
  hwx0_2 : ∀ i : grid0.Coords, EltTy.bits .f32 = 32 ∨ (Rect.block (s := S59x12) S59x12.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x12.size a ≤ S1x12.size a
  hwx0_3 : ∀ i : grid0.Coords, EltTy.bits .f32 = 32 ∨ (Rect.block (s := S1x12) S1x12.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S8192x4.size a < S1000000x4.size a
  hwx0_4 : ∀ i : grid0.Coords, EltTy.bits .f32 = 32 ∨ (Rect.unit (s := S1000000x4) (fun a => cc0_transform_4 i a * S8192x4.size a) (fun a => (Pipeline.Clip.of (cc0_transform_4 i a) (S8192x4.size a) (S1000000x4.size a)).extent (S8192x4.size a)) fun a => Pipeline.Clip.inb (Pipeline.Clip.ok_of (hstart0_4 i a))).WholeWords (EltTy.packing .f32)
  hwxs0_4 : ∀ i : grid0.Coords, EltTy.bits .f32 = 32 ∨ (Rect.unit (s := S8192x4) (fun _ => 0) (fun a => (Pipeline.Clip.of (cc0_transform_4 i a) (S8192x4.size a) (S1000000x4.size a)).extent (S8192x4.size a)) fun a => (Nat.zero_add _).trans_le (Pipeline.Clip.extent_le (Pipeline.Clip.ok_of (hstart0_4 i a)))).WholeWords (EltTy.packing .f32)

variable [Facts₀]

def dot_S8192x59_S59x12_S8192x12_1_0_0_1_n_n : DotDims S8192x59 S59x12 S8192x12 where
  lhsContracting := [1]
  rhsContracting := [0]
  lhsNonContracting := [0]
  rhsNonContracting := [1]
  lhsBatch := []
  rhsBatch := []
  wf := dot_S8192x59_S59x12_S8192x12_1_0_0_1_n_n_wf

abbrev win0_0 : Pipeline.Window sig grid0 :=
  Pipeline.Window.ofSpecClip (Memref.whole main_arg0) S8192x59.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v0) S8192x12.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v1) S59x12.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x12.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_v3) S8192x4.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1000000x59 : Shape := ⟨2, ![1000000, 59]⟩
abbrev S1000000x4x3 : Shape := ⟨3, ![1000000, 4, 3]⟩
abbrev S12x59 : Shape := ⟨2, ![12, 59]⟩
abbrev S12 : Shape := ⟨1, ![12]⟩
abbrev S1000000x12 : Shape := ⟨2, ![1000000, 12]⟩
abbrev S1x12 : Shape := ⟨2, ![1, 12]⟩
abbrev S1000000 : Shape := ⟨1, ![1000000]⟩
abbrev S1000000x1x1 : Shape := ⟨3, ![1000000, 1, 1]⟩
abbrev S_ : Shape := ⟨0, ![]⟩
abbrev S1000000x4x3x1 : Shape := ⟨4, ![1000000, 4, 3, 1]⟩
abbrev S1000000x4x3x2 : Shape := ⟨4, ![1000000, 4, 3, 2]⟩
abbrev S1000000x4 : Shape := ⟨2, ![1000000, 4]⟩

abbrev nBuf : Space → Nat
  | .hbm => 31
  | .vmem => 0
  | .smem => 0
  | _ => 0

abbrev bufTy : (tb : Table) → Fin (tcTables nBuf tb) → BufTy
  | .hbm, ⟨0, _⟩ => ⟨S1000000x59, .f32⟩
  | .hbm, ⟨1, _⟩ => ⟨S1000000x4x3, .i32⟩
  | .hbm, ⟨2, _⟩ => ⟨S12x59, .f32⟩
  | .hbm, ⟨3, _⟩ => ⟨S12, .f32⟩
  | .hbm, ⟨4, _⟩ => ⟨S1000000x12, .f32⟩
  | .hbm, ⟨5, _⟩ => ⟨S1x12, .f32⟩
  | .hbm, ⟨6, _⟩ => ⟨S1000000x12, .f32⟩
  | .hbm, ⟨7, _⟩ => ⟨S1000000x12, .f32⟩
  | .hbm, ⟨8, _⟩ => ⟨S1000000, .i32⟩
  | .hbm, ⟨9, _⟩ => ⟨S1000000x1x1, .i32⟩
  | .hbm, ⟨10, _⟩ => ⟨S_, .i32⟩
  | .hbm, ⟨11, _⟩ => ⟨S1000000x1x1, .i32⟩
  | .hbm, ⟨12, _⟩ => ⟨S1000000x1x1, .i1⟩
  | .hbm, ⟨13, _⟩ => ⟨S_, .i32⟩
  | .hbm, ⟨14, _⟩ => ⟨S1000000x1x1, .i32⟩
  | .hbm, ⟨15, _⟩ => ⟨S1000000x1x1, .i32⟩
  | .hbm, ⟨16, _⟩ => ⟨S1000000x1x1, .i32⟩
  | .hbm, ⟨17, _⟩ => ⟨S_, .i32⟩
  | .hbm, ⟨18, _⟩ => ⟨S1000000x4x3, .i32⟩
  | .hbm, ⟨19, _⟩ => ⟨S1000000x4x3, .i1⟩
  | .hbm, ⟨20, _⟩ => ⟨S_, .i32⟩
  | .hbm, ⟨21, _⟩ => ⟨S1000000x4x3, .i32⟩
  | .hbm, ⟨22, _⟩ => ⟨S1000000x4x3, .i32⟩
  | .hbm, ⟨23, _⟩ => ⟨S1000000x4x3, .i32⟩
  | .hbm, ⟨24, _⟩ => ⟨S1000000x4x3, .i32⟩
  | .hbm, ⟨25, _⟩ => ⟨S1000000x4x3x1, .i32⟩
  | .hbm, ⟨26, _⟩ => ⟨S1000000x4x3x1, .i32⟩
  | .hbm, ⟨27, _⟩ => ⟨S1000000x4x3x2, .i32⟩
  | .hbm, ⟨28, _⟩ => ⟨S1000000x4x3, .f32⟩
  | .hbm, ⟨29, _⟩ => ⟨S_, .f32⟩
  | .hbm, ⟨30, _⟩ => ⟨S1000000x4, .f32⟩
  | _, _ => ⟨S1000000x59, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  bcast_S12_S1x12_1 : S12.BroadcastsInDim S1x12 (![1] : Fin 1 → Fin S1x12.rank)
  bcast_S1x12_S1000000x12_0_1 : S1x12.BroadcastsInDim S1000000x12 (![0, 1] : Fin 2 → Fin S1000000x12.rank)
  bcast_S1000000_S1000000x1x1_0 : S1000000.BroadcastsInDim S1000000x1x1 (![0] : Fin 1 → Fin S1000000x1x1.rank)
  bcast_S_S1000000x1x1 : S_.BroadcastsInDim S1000000x1x1 (![] : Fin 0 → Fin S1000000x1x1.rank)
  bcast_S_S1000000x4x3 : S_.BroadcastsInDim S1000000x4x3 (![] : Fin 0 → Fin S1000000x4x3.rank)
  bcast_S1000000x1x1_S1000000x4x3_0_1_2 : S1000000x1x1.BroadcastsInDim S1000000x4x3 (![0, 1, 2] : Fin 3 → Fin S1000000x4x3.rank)
  bcast_S1000000x4x3_S1000000x4x3x1_0_1_2 : S1000000x4x3.BroadcastsInDim S1000000x4x3x1 (![0, 1, 2] : Fin 3 → Fin S1000000x4x3x1.rank)
  concatenates_S1000000x4x3x1_S1000000x4x3x1_S1000000x4x3x2_d3 : Shape.Concatenates [S1000000x4x3x1, S1000000x4x3x1] S1000000x4x3x2 3
  reducesTo_S1000000x4x3_S1000000x4_d2 : S1000000x4x3.ReducesTo [2] S1000000x4
  h_S_ : 0 < S_.numel
  dot_S1000000x59_S12x59_S1000000x12_1_1_0_0_n_n_wf : DotDims.WF S1000000x59 S12x59 S1000000x12 [1] [1] [0] [0] [] []
  gather_S1000000x12_S1000000x4x3x2_S1000000x4x3_n_01_n_n_01_3_11_wf : GatherDims.WF S1000000x12 S1000000x4x3x2 S1000000x4x3 [] [0, 1] [] [0, 1] [] 3 ![1, 1]

variable [Facts₀]

def dot_S1000000x59_S12x59_S1000000x12_1_1_0_0_n_n : DotDims S1000000x59 S12x59 S1000000x12 where
  lhsContracting := [1]
  rhsContracting := [1]
  lhsNonContracting := [0]
  rhsNonContracting := [0]
  lhsBatch := []
  rhsBatch := []
  wf := dot_S1000000x59_S12x59_S1000000x12_1_1_0_0_n_n_wf
def gather_S1000000x12_S1000000x4x3x2_S1000000x4x3_n_01_n_n_01_3_11 : GatherDims S1000000x12 S1000000x4x3x2 S1000000x4x3 where
  offsetDims := []
  collapsedSliceDims := [0, 1]
  operandBatchingDims := []
  startIndicesBatchingDims := []
  startIndexMap := [0, 1]
  indexVectorDim := 3
  sliceSizes := ![1, 1]
  wf := gather_S1000000x12_S1000000x4x3x2_S1000000x4x3_n_01_n_n_01_3_11_wf

class Facts : Prop extends Facts₀ where

variable [Facts]
-- ==== Proof.BlockBits.lean ====
/-
  What one grid point stores: the output block as ONE function of the four blocks the body loads
  (activity rows, pick words, the transposed weights, the bias row), for any float instance.
  The body computes the twelve features of each row once and then, card by card, adds the three one-hot
  selections; the four card columns are laid side by side.
-/
import proofs.«412381_j83708912599091_2_alg».proof.Proof.Gen.Kernel.Skeleton

noncomputable section

namespace Cert.Kernel.Blk

open Idealize.ShloMosaic Idealize.SL.Sem Cert.Kernel Cert.Kernel.Gen
open Cert.Kernel.Facts₀ Cert.Kernel.Facts

variable {F : FTy → Type} [FloatOps F]

/-- The lane numbers 0‥11 the picks are compared with. -/
def lanes : IVec S1x12 32 := iota .tc S1x12 32 [1] Facts₀.iota_S1x12_d1_w32

/-- The block a grid point stores, from the blocks it loads. -/
def outBlock (v0 : Vec F S8192x59 .f32) (v2 : Vec F S59x12 .f32) (v6 : Vec F S1x12 .f32) (v10 : Vec F S8192x12 .i32) :
    Vec F S8192x4 .f32 :=
  k0_pay1 (k0_pay2 v0 v2 v6) (k0_pay3 v10) lanes (k0_pay4 v0 v2 v6 v10)
    (k0_pay6 (k0_pay2 v0 v2 v6) (k0_pay3 v10) lanes (k0_pay5 (F := F)))
    (k0_pay7 (k0_pay2 v0 v2 v6) (k0_pay3 v10) lanes) (k0_pay8 (k0_pay3 v10)) (k0_pay9 lanes)

end Cert.Kernel.Blk

end
-- ==== Proof.BodyBits.lean ====
/-
  The kernel body as a triple, for any float instance: run on whole staging buffers holding a block of activity
  rows, a block of pick words, the transposed weights and the bias row, it leaves those four as they were and the
  output buffer holding the block `outBlock` computes from them — four whole-buffer loads, one whole-buffer store.
-/
import proofs.«412381_j83708912599091_2_alg».proof.Proof.Gen.Kernel.Frame
import proofs.«412381_j83708912599091_2_alg».proof.Proof.Gen.Kernel.Skeleton
import proofs.«412381_j83708912599091_2_alg».proof.Proof.BlockBits
import Idealize.ShloMosaic.Lib.Pipeline.FrameBody
import Idealize.ShloMosaic.Lib.Pipeline.Value
import Idealize.ShloMosaic.Lib.Pipeline.Kit
import Idealize.ShloMosaic.Lib.Ring
import Idealize.ShloMosaic.Lib.Tactic

set_option maxRecDepth 16384

noncomputable section

namespace Cert.Kernel.Blk

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.Kernel.Facts₀ Cert.Kernel.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body on whole staging buffers at contents `x0` (activity), `x1` (picks), `x2` (weights), `x3` (bias),
    the output's at anything: it ends with the inputs unchanged and the output's at `outBlock x0 x2 x3 x1`. -/
theorem sound_kernel (c : Dev nD) (E : Set ℕ) (i : grid0.Coords)
    (arg1 : Memref sig .tc .vmem S8192x59 .f32) (harg1 : arg1.IsWhole) (arg2 : Memref sig .tc .vmem S8192x12 .i32) (harg2 : arg2.IsWhole)
    (arg3 : Memref sig .tc .vmem S59x12 .f32) (harg3 : arg3.IsWhole) (arg4 : Memref sig .tc .vmem S1x12 .f32) (harg4 : arg4.IsWhole)
    (arg5 : Memref sig .tc .vmem S8192x4 .f32) (harg5 : arg5.IsWhole)
    (x0 : Vec F S8192x59 .f32) (x1 : Vec F S8192x12 .i32) (x2 : Vec F S59x12 .f32) (x3 : Vec F S1x12 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outBlock x0 x2 x3 x1)) -∗ K ⟨⟩))
      ⊢ wp frame (wpE (defs₀ (F := F)) Variants.none c none) E (cc0__value_kernel i arg1 harg1 arg2 harg2 arg3 harg3 arg4 harg4 arg5 harg5) K := by
  simp only [cc0__value_kernel_eq_skeleton]; unfold cc0__value_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- the one store covers the output buffer, so the buffer reads back as the stored block; each load of a whole
  -- buffer at offset zero is the buffer's contents
  have hz : (![0, 0] : Fin 2 → Nat) = fun _ => 0 := funext fun a => by fin_cases a <;> rfl
  rw [View.read_writes_eq_canon _ _ _ (fun y => View.cover_of_tiled [⟨_, _⟩] S8192x4.size (by rfl) y)]
  sl_unfold_words
  rw [View.canon_unit_zero hz]
  simp only [View.readAt_eq_ld, View.ld_unit_zero (S := S8192x59) hz, View.ld_unit_zero (S := S59x12) hz,
    View.ld_unit_zero (S := S1x12) hz, View.ld_unit_zero (S := S8192x12) hz]
  rfl

end Cert.Kernel.Blk

end
-- ==== Proof.FrameBits.lean ====
/-
  The frame of the printed kernel (any float instance; cited at the bit-exact one): every weakly fair execution of
  @main ends, nothing faults, and the four argument arrays end as they began.
  Nothing is claimed here about what the run computes, so the proof data name no staging contents at all: every
  window is handed to the body at whatever it holds and taken back at whatever the body leaves. The body's triple
  asks nothing of the contents it loads (four whole-buffer loads, one whole-buffer store), so it applies at each
  grid point. The activity array is a fetched input of the pipeline and ends at its entry contents; the other three
  arguments are touched by no window.
-/
import proofs.«412381_j83708912599091_2_alg».proof.Proof.BodyBits

set_option maxRecDepth 16384

noncomputable section

namespace Cert.Kernel.Blk

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.Kernel.Facts₀ Cert.Kernel.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Proof data that name nothing: the arrays as the region finds them, the class's invariant, full shares,
    nothing owed; the staging contents after the body are never read (every window is forgotten below). -/
def datsAny (_ : Fin 1) (c : Dev nD) : Dat τ (Elt F) Unit ℕ (UR sig nD τ) ℕ cfg0 c where
  A w := V m c (Pipeline.arrRef spec0 w)
  after w t := fun _ => Classical.arbitrary _
  Φ _ := Pipeline.ΦA spec0 c
  q _ := fullShare
  owed _ := 0

/-- Every window forgotten. -/
abbrev allForgotten : Fin cfg0.W → Bool := fun _ => true

/-- At every grid point the body runs from the five current staging buffers at any contents to the five at some
    contents, the invariant and what the core owes passing through unread. -/
theorem body_any (c : Dev nD) :
    BodyObligationLoose (datsAny (F := F) m 0 c) (defs₀ (F := F)) Variants.none () Set.univ allForgotten := fun t => by
  rw [bigSep_W0]
  try rw [bigSep_W0]
  simp only [allForgotten]
  rw [show (datsAny m 0 c).Φ t.succ = (datsAny m 0 c).Φ t.castSucc from rfl,
    show (datsAny m 0 c).owesAt () t.succ = (datsAny m 0 c).owesAt () t.castSucc from rfl]
  iintro ⟨HΦ, Ho, ⟨%X0, H0⟩, ⟨%X1, H1⟩, ⟨%X2, H2⟩, ⟨%X3, H3⟩, ⟨%X4, H4⟩⟩
  iapply (sound_kernel (F := F) c Set.univ (grid0.coords t) _ _ _ _ _ _ _ _ _ _ X0 X1 X2 X3 _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexists _; iexact H0
  isplitl [H1]; · iexists _; iexact H1
  isplitl [H2]; · iexists _; iexact H2
  isplitl [H3]; · iexists _; iexact H3
  iexists _; iexact H4

set_option backward.isDefEq.respectTransparency.types false in
/-- The run: every weakly fair execution of @main ends; each windowed array then holds contents the relational
    data admit (an input: its entry contents), every other unscoped buffer what the region found. -/
theorem run_any : θ_run defs (onTc (τ := τ) (main (F := F))) (s₀ m ρ)
    (RDat.FramePost cfg0 (fun c => (datsAny m 0 c).toRForget allForgotten) (V m)) :=
  RDat.θ_run_frame cfgs (0 : Fin 1) launch0 defs₀ Variants.none (fun c => (datsAny m 0 c).toRForget allForgotten) m ρ main
    (hbody := fun c => (body_any m c).toRForget)
    (hshare := fun c => (datsAny m 0 c).share_full fun _ => rfl) (howed := fun _ _ => rfl)
    (V := V m) (hmain := hmain m Variants.none) (hA := fun _ _ => rfl) (hΦ := fun _ _ => rfl)

/-- The frame: the argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(Eq.mp (congrFun (RDat.ArrAt_in ((datsAny m 0 c).toRForget allForgotten) (0 : Fin 5) rfl cfg0.N) _) ((h c).1 0)).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_any m ρ)

end Cert.Kernel.Blk

end
-- ==== Proof.Block.lean ====
/-
  What one grid point stores: the output block as ONE function of the four blocks the body loads
  (activity rows, pick words, the transposed weights, the bias row), for any float instance.
  The body computes the twelve features of each row once and then, card by card, adds the three one-hot
  selections; the four card columns are laid side by side.
-/
import proofs.«412381_j83708912599091_2_alg».proof.Proof.Gen.KernelIdeal.Skeleton

noncomputable section

namespace Cert.KernelIdeal.Blk

open Idealize.ShloMosaic Idealize.SL.Sem Cert.KernelIdeal Cert.KernelIdeal.Gen
open Cert.KernelIdeal.Facts₀ Cert.KernelIdeal.Facts

variable {F : FTy → Type} [FloatOps F]

/-- The lane numbers 0‥11 the picks are compared with. -/
def lanes : IVec S1x12 32 := iota .tc S1x12 32 [1] Facts₀.iota_S1x12_d1_w32

/-- The block a grid point stores, from the blocks it loads. -/
def outBlock (v0 : Vec F S8192x59 .f32) (v2 : Vec F S59x12 .f32) (v6 : Vec F S1x12 .f32) (v10 : Vec F S8192x12 .i32) :
    Vec F S8192x4 .f32 :=
  k0_pay1 (k0_pay2 v0 v2 v6) (k0_pay3 v10) lanes (k0_pay4 v0 v2 v6 v10)
    (k0_pay6 (k0_pay2 v0 v2 v6) (k0_pay3 v10) lanes (k0_pay5 (F := F)))
    (k0_pay7 (k0_pay2 v0 v2 v6) (k0_pay3 v10) lanes) (k0_pay8 (k0_pay3 v10)) (k0_pay9 lanes)

end Cert.KernelIdeal.Blk

end
-- ==== Proof.Body.lean ====
/-
  The kernel body as a triple, for any float instance: run on whole staging buffers holding a block of activity
  rows, a block of pick words, the transposed weights and the bias row, it leaves those four as they were and the
  output buffer holding the block `outBlock` computes from them — four whole-buffer loads, one whole-buffer store.
-/
import proofs.«412381_j83708912599091_2_alg».proof.Proof.Gen.KernelIdeal.Frame
import proofs.«412381_j83708912599091_2_alg».proof.Proof.Gen.KernelIdeal.Skeleton
import proofs.«412381_j83708912599091_2_alg».proof.Proof.Block
import Idealize.ShloMosaic.Lib.Pipeline.FrameBody
import Idealize.ShloMosaic.Lib.Pipeline.Value
import Idealize.ShloMosaic.Lib.Pipeline.Kit
import Idealize.ShloMosaic.Lib.Ring
import Idealize.ShloMosaic.Lib.Tactic

set_option maxRecDepth 16384

noncomputable section

namespace Cert.KernelIdeal.Blk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.KernelIdeal.Facts₀ Cert.KernelIdeal.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body on whole staging buffers at contents `x0` (activity), `x1` (picks), `x2` (weights), `x3` (bias),
    the output's at anything: it ends with the inputs unchanged and the output's at `outBlock x0 x2 x3 x1`. -/
theorem sound_kernel (c : Dev nD) (E : Set ℕ) (i : grid0.Coords)
    (arg1 : Memref sig .tc .vmem S8192x59 .f32) (harg1 : arg1.IsWhole) (arg2 : Memref sig .tc .vmem S8192x12 .i32) (harg2 : arg2.IsWhole)
    (arg3 : Memref sig .tc .vmem S59x12 .f32) (harg3 : arg3.IsWhole) (arg4 : Memref sig .tc .vmem S1x12 .f32) (harg4 : arg4.IsWhole)
    (arg5 : Memref sig .tc .vmem S8192x4 .f32) (harg5 : arg5.IsWhole)
    (x0 : Vec F S8192x59 .f32) (x1 : Vec F S8192x12 .i32) (x2 : Vec F S59x12 .f32) (x3 : Vec F S1x12 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outBlock x0 x2 x3 x1)) -∗ K ⟨⟩))
      ⊢ wp frame (wpE (defs₀ (F := F)) Variants.none c none) E (cc0__value_kernel i arg1 harg1 arg2 harg2 arg3 harg3 arg4 harg4 arg5 harg5) K := by
  simp only [cc0__value_kernel_eq_skeleton]; unfold cc0__value_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- the one store covers the output buffer, so the buffer reads back as the stored block; each load of a whole
  -- buffer at offset zero is the buffer's contents
  have hz : (![0, 0] : Fin 2 → Nat) = fun _ => 0 := funext fun a => by fin_cases a <;> rfl
  rw [View.read_writes_eq_canon _ _ _ (fun y => View.cover_of_tiled [⟨_, _⟩] S8192x4.size (by rfl) y)]
  sl_unfold_words
  rw [View.canon_unit_zero hz]
  simp only [View.readAt_eq_ld, View.ld_unit_zero (S := S8192x59) hz, View.ld_unit_zero (S := S59x12) hz,
    View.ld_unit_zero (S := S1x12) hz, View.ld_unit_zero (S := S8192x12) hz]
  rfl

end Cert.KernelIdeal.Blk

end
-- ==== Proof.Spec.lean ====
/-
  The mathematics both programs compute, over the extended reals.

  Row r of the activity matrix is projected onto twelve feature values,
      feat r v = (Σ_{i<59} activity[r,i] · weight[v,i]) + bias[v],
  and card c of row r is worth the sum of the three features its three picks name,
      value r c = Σ_{k<3} pick (feat r) picks[r,c,k].
  A pick is a 32-bit word; `pick f w` is `f` at the number the word denotes when that number is below twelve,
  and zero otherwise (a word naming no feature selects nothing from a one-hot row).
-/
import Idealize.ShloMosaic.PureOps.Ideal
import Idealize.ShloMosaic.Lib.ValueIdx

noncomputable section

open scoped BigOperators

namespace Cert.Spec

open Idealize.ShloMosaic Idealize.ShloMosaic.ValueIdx

/-- The feature a word names among twelve, zero when it names none. -/
def pick (f : Fin 12 → EReal) (w : BitVec 32) : EReal :=
  if h : w.toNat < 12 then f ⟨w.toNat, h⟩ else 0

/-- Row `r`'s feature `v`: the row's inner product with weight row `v`, plus the bias. -/
def feat (act : (⟨2, ![1000000, 59]⟩ : Shape).Idx → EReal) (wgt : (⟨2, ![12, 59]⟩ : Shape).Idx → EReal)
    (bias : (⟨1, ![12]⟩ : Shape).Idx → EReal) (r : Fin 1000000) (v : Fin 12) : EReal :=
  (∑ i : Fin 59, act (ix2 r i) * wgt (ix2 v i)) + bias (ix1 v)

/-- The card values: entry (r, c) is the sum over the card's three picks of the feature each names. -/
def cardValues (act : (⟨2, ![1000000, 59]⟩ : Shape).Idx → EReal) (picks : (⟨3, ![1000000, 4, 3]⟩ : Shape).Idx → BitVec 32)
    (wgt : (⟨2, ![12, 59]⟩ : Shape).Idx → EReal) (bias : (⟨1, ![12]⟩ : Shape).Idx → EReal) :
    (⟨2, ![1000000, 4]⟩ : Shape).Idx → EReal :=
  fun j => ∑ k : Fin 3, pick (feat act wgt bias (j 0)) (picks (ix3 (j 0) (j 1) k))

/-- A one-hot row selects: summing `f v` against the indicator of "the word is `v`" over the twelve values is
    the feature the word names, or zero when it names none. (On the extended reals `x · 0 = 0` and `x · 1 = x`
    for every `x`, the infinities included, so nothing is asked of `f`.) -/
theorem sum_onehot (f : Fin 12 → EReal) (w : BitVec 32) :
    (∑ v : Fin 12, f v * (if w = BitVec.ofNat 32 v.val then (1 : EReal) else 0)) = pick f w := by
  unfold pick
  split
  · rename_i h
    rw [Finset.sum_eq_single (⟨w.toNat, h⟩ : Fin 12)]
    · rw [if_pos (by apply BitVec.eq_of_toNat_eq; rw [BitVec.toNat_ofNat]; show w.toNat = w.toNat % 2 ^ 32; omega), mul_one]
    · intro v _ hv
      rw [if_neg, mul_zero]
      intro hw
      apply hv
      apply Fin.ext
      show v.val = w.toNat
      have := congrArg BitVec.toNat hw
      rw [BitVec.toNat_ofNat] at this
      have hv12 := v.isLt
      omega
    · intro hx; exact absurd (Finset.mem_univ _) hx
  · rename_i h
    apply Finset.sum_eq_zero
    intro v _
    rw [if_neg, mul_zero]
    intro hw
    apply h
    have := congrArg BitVec.toNat hw
    rw [BitVec.toNat_ofNat] at this
    have hv12 := v.isLt
    omega

end Cert.Spec

end
-- ==== Proof.LibKeepdims.lean ====
/-
  A reduction along the rows of a matrix kept as a column (`keepdims=True`) and spread back over the matrix, read at
  an index. A row reduction of an `[a, b]` matrix is an `[a]` vector; `keepdims` casts it to a column `[a, 1]`, and
  the arithmetic that follows broadcasts the column to `[a, b]`. Read at `(p, c)` the result is the vector at `p`,
  whatever the column `c`. Beside that: the index a row reduction inserts — the reduced index `p` with the column
  `k` put back on axis 1 — is `(p, k)`. General in the extents and in the element type; nothing here depends on a
  kernel.
-/
import Idealize.ShloMosaic.Lib.Pipeline.Value
import Idealize.ShloMosaic.Lib.ValueIdx
import Idealize.ShloMosaic.PureOps.Reduce

namespace Idealize.ShloMosaic.Keepdims

open Idealize.ShloMosaic Idealize.ShloMosaic.ValueIdx

variable {α : Type}

/-- An `[a]` vector cast to the column `[a, 1]` reads, at `(p, u)`, the vector at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and spread over the matrix reads, at `(p, c)`, the vector at `p`. -/
theorem keepdims_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- The index a reduction along the rows inserts: the reduced index `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

end Idealize.ShloMosaic.Keepdims
-- ==== Proof.BlockAt.lean ====
/-
  The block one grid point stores, read at one entry, over the extended reals.

  Row p of the activity block has twelve features, fv(p, v) = (Σ_{i<59} x0(p, i) · x2(i, v)) + x6(0, v): a product with
  the transposed weights plus the bias row. For the pick word w = x10(p, j) of lane j the body forms
  Σ_{v<12} fv(p, v) · [w = v], the indicator being the comparison bit read as a number; that is a one-hot selection,
  the feature w names, or zero when w names none. Card c's entry is ((0 + s_{3c}) + s_{3c+1}) + s_{3c+2}, and the four
  cards' columns lie side by side, so entry (p, c) of the block is the sum over the card's three picks of the
  features they name.
-/
import proofs.«412381_j83708912599091_2_alg».proof.Proof.Block
import proofs.«412381_j83708912599091_2_alg».proof.Proof.Spec
import proofs.«412381_j83708912599091_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Blk

open Idealize.ShloMosaic Idealize.ShloMosaic.ValueIdx Idealize.SL.Sem Cert.KernelIdeal Cert.KernelIdeal.Gen
open Cert.KernelIdeal.Facts₀ Cert.KernelIdeal.Facts

/-- The indicator of two equal words, as the float the body multiplies by: the comparison bit widened to a word and
    read as a signed integer is one when the words are equal and zero otherwise. -/
theorem indicator (a b : BitVec 32) :
    (FloatOps.sitofp (F := Ideal) .f32 ((IntOp.cmpi .eq a b).setWidth 32) : EReal) = if a = b then 1 else 0 := by
  show (((((IntOp.cmpi .eq a b).setWidth 32).toInt : ℤ) : ℝ) : EReal) = _
  by_cases h : a = b
  · subst h
    rw [if_pos rfl]
    have : IntOp.cmpi .eq a a = 1#1 := by simp [IntOp.cmpi]
    rw [this]
    norm_num
  · rw [if_neg h]
    have : IntOp.cmpi .eq a b = 0#1 := by
      show BitVec.ofBool (a == b) = 0#1
      rw [beq_eq_false_iff_ne.mpr h]; rfl
    rw [this]
    norm_num

/-- Lane k of the lane numbers is the word k. -/
theorem lanes_apply (k : Fin 12) : lanes (ix2 (0 : Fin 1) k) = BitVec.ofNat 32 k.val :=
  iota_single_apply .tc S1x12 32 1 Facts₀.iota_S1x12_d1_w32 _

/-! ## The twelve features of a row -/

/- The operand indices of the product at output (p, v) and contraction position q: the left operand is read at
   (p, q), the right one at (q, v). One fact per operand axis. -/
theorem lhs_feat_0 (j : S8192x12.Idx) (q : dot_S8192x59_S59x12_S8192x12_1_0_0_1_n_n.contr.Idx) :
    (dot_S8192x59_S59x12_S8192x12_1_0_0_1_n_n.lhsIdx j q 0).val = (j 0).val := by
  unfold DotDims.lhsIdx
  rw [dif_neg (show ¬(0 : Fin S8192x59.rank) ∈ dot_S8192x59_S59x12_S8192x12_1_0_0_1_n_n.lhsBatch by decide), dif_pos (show (0 : Fin S8192x59.rank) ∈ dot_S8192x59_S59x12_S8192x12_1_0_0_1_n_n.lhsNonContracting by decide)]
  rfl
theorem lhs_feat_1 (j : S8192x12.Idx) (q : dot_S8192x59_S59x12_S8192x12_1_0_0_1_n_n.contr.Idx) :
    (dot_S8192x59_S59x12_S8192x12_1_0_0_1_n_n.lhsIdx j q 1).val = (q ⟨0, by decide⟩).val :=
  dot_S8192x59_S59x12_S8192x12_1_0_0_1_n_n.lhsIdx_val_of_single rfl j q
theorem rhs_feat_0 (j : S8192x12.Idx) (q : dot_S8192x59_S59x12_S8192x12_1_0_0_1_n_n.contr.Idx) :
    (dot_S8192x59_S59x12_S8192x12_1_0_0_1_n_n.rhsIdx j q 0).val = (q ⟨0, by decide⟩).val :=
  dot_S8192x59_S59x12_S8192x12_1_0_0_1_n_n.rhsIdx_val_of_single rfl j q
theorem rhs_feat_1 (j : S8192x12.Idx) (q : dot_S8192x59_S59x12_S8192x12_1_0_0_1_n_n.contr.Idx) :
    (dot_S8192x59_S59x12_S8192x12_1_0_0_1_n_n.rhsIdx j q 1).val = (j 1).val := by
  unfold DotDims.rhsIdx
  rw [dif_neg (show ¬(1 : Fin S59x12.rank) ∈ dot_S8192x59_S59x12_S8192x12_1_0_0_1_n_n.rhsBatch by decide), dif_pos (show (1 : Fin S59x12.rank) ∈ dot_S8192x59_S59x12_S8192x12_1_0_0_1_n_n.rhsNonContracting by decide)]
  rfl

/-- The features: entry (p, v) of the product plus the bias row is the row's inner product with column v of the
    transposed weights, plus the bias at v. -/
theorem feat_apply (x0 : Vec Ideal S8192x59 .f32) (x2 : Vec Ideal S59x12 .f32) (x6 : Vec Ideal S1x12 .f32)
    (p : Fin 8192) (v : Fin 12) :
    k0_pay2 (F := Ideal) x0 x2 x6 (ix2 p v)
      = (∑ i : Fin 59, x0 (ix2 p i) * x2 (ix2 i v)) + x6 (ix2 (0 : Fin 1) v) := by
  unfold k0_pay2
  refine (addf_apply _ _ _).trans ?_
  refine congrArg₂ (· + ·) ?_ ?_
  · refine (Ideal.matmul_constant_zero_apply dot_S8192x59_S59x12_S8192x12_1_0_0_1_n_n none _ _ _).trans ?_
    rw [← Equiv.sum_comp (contrEquiv1 dot_S8192x59_S59x12_S8192x12_1_0_0_1_n_n 59 rfl rfl).symm]
    refine Finset.sum_congr rfl fun k _ => ?_
    have hk := contrEquiv1_symm_val dot_S8192x59_S59x12_S8192x12_1_0_0_1_n_n 59 rfl rfl k
    have el : dot_S8192x59_S59x12_S8192x12_1_0_0_1_n_n.lhsIdx (ix2 p v) ((contrEquiv1 dot_S8192x59_S59x12_S8192x12_1_0_0_1_n_n 59 rfl rfl).symm k) = ix2 p k := funext fun a => Fin.ext (by
      match a with
      | ⟨0, _⟩ => exact lhs_feat_0 _ _
      | ⟨1, _⟩ => exact (lhs_feat_1 _ _).trans hk)
    have er : dot_S8192x59_S59x12_S8192x12_1_0_0_1_n_n.rhsIdx (ix2 p v) ((contrEquiv1 dot_S8192x59_S59x12_S8192x12_1_0_0_1_n_n 59 rfl rfl).symm k) = ix2 k v := funext fun a => Fin.ext (by
      match a with
      | ⟨0, _⟩ => exact (rhs_feat_0 _ _).trans hk
      | ⟨1, _⟩ => exact rhs_feat_1 _ _)
    show x0 (dot_S8192x59_S59x12_S8192x12_1_0_0_1_n_n.lhsIdx (ix2 p v) ((contrEquiv1 dot_S8192x59_S59x12_S8192x12_1_0_0_1_n_n 59 rfl rfl).symm k))
        * shapeCast S59x12 x2 _ (dot_S8192x59_S59x12_S8192x12_1_0_0_1_n_n.rhsIdx (ix2 p v) ((contrEquiv1 dot_S8192x59_S59x12_S8192x12_1_0_0_1_n_n 59 rfl rfl).symm k)) = _
    rw [shapeCast_self, el, er]
  · refine (broadcastTo_1b_ab_apply _ _ p v).trans ?_
    rw [shapeCast_self]

/-! ## One lane's column -/

/-- The column the pick word in column `o` of the pick block contributes: over the twelve lanes, the sum of the feature
    times the indicator "the word is this lane's number", kept as a column. -/
abbrev laneCol (fv : FVec Ideal S8192x12 .f32) (v11 : IVec S8192x12 32) (v12 : IVec S1x12 32) (o : Nat)
    (hs : S8192x12.Slices ![0, o] S8192x1) : FVec Ideal S8192x1 .f32 :=
  shapeCast S8192x1 (multiReduction (F := Ideal) .add [1] S8192
    (mulf fv (sitofp .f32 (extui 32 (cmpi .eq
      (broadcastTo S8192x12 (extractStridedSlice S8192x1 ![0, o] v11 hs) Facts₀.broadcasts_S8192x1_S8192x12)
      (broadcastTo S8192x12 v12 Facts₀.broadcasts_S1x12_S8192x12)) Facts₀.natLt_1_32)))
    0x00000000#32 Facts₀.reduces_S8192x12_S8192 (.inl rfl) rfl) Facts₀.shapeCasts_S8192_S8192x1

/-- Entry (p, u) of that column is the feature the word names, zero when it names none. -/
theorem lane_apply (fv : FVec Ideal S8192x12 .f32) (v11 : IVec S8192x12 32) (v12 : IVec S1x12 32)
    (hv12 : ∀ k : Fin 12, v12 (ix2 (0 : Fin 1) k) = BitVec.ofNat 32 k.val)
    (o : Nat) (ho : o < 12) (hs : S8192x12.Slices ![0, o] S8192x1) (p : Fin 8192) (u : Fin 1) :
    laneCol fv v11 v12 o hs (ix2 p u)
      = Cert.Spec.pick (fun v => fv (ix2 p v)) (v11 (ix2 p (⟨o, ho⟩ : Fin 12))) := by
  refine (Keepdims.shapeCast_a_a1_apply _ _ p u).trans ?_
  refine (Ideal.multiReduction_add_single _ _ _ _ _ (ix1 p)).trans ?_
  refine Eq.trans (Finset.sum_congr rfl fun k _ => ?_)
    (Cert.Spec.sum_onehot (fun v => fv (ix2 p v)) (v11 (ix2 p (⟨o, ho⟩ : Fin 12))))
  rw [Keepdims.lift_row]
  have hA : broadcastTo S8192x12 (extractStridedSlice S8192x1 ![0, o] v11 hs) Facts₀.broadcasts_S8192x1_S8192x12
      (ix2 p (⟨k.val, k.isLt⟩ : Fin 12)) = v11 (ix2 p (⟨o, ho⟩ : Fin 12)) :=
    (Keepdims.broadcastTo_a1_ab_apply _ _ p _).trans (slice2_axis1_apply o v11 hs p 0 ⟨o, ho⟩ rfl)
  have hB : broadcastTo S8192x12 v12 Facts₀.broadcasts_S1x12_S8192x12 (ix2 p (⟨k.val, k.isLt⟩ : Fin 12))
      = BitVec.ofNat 32 k.val :=
    (broadcastTo_1b_ab_apply _ _ p _).trans (hv12 _)
  refine (mulf_apply _ _ _).trans ?_
  refine congrArg (fv (ix2 p (⟨k.val, k.isLt⟩ : Fin 12)) * ·) ?_
  exact (indicator _ _).trans (congrArg₂ (fun a b : BitVec 32 => if a = b then (1 : EReal) else 0) hA hB)

/-! ## One card's column -/

/-- The zero column every card starts from. -/
theorem zero_col (i : S8192x1.Idx) :
    broadcast S8192x1 (Scalar.ofBits (F := Ideal) .f32 0x00000000#32) i = 0 :=
  Ideal.ofBits_zero_f32

/-- A card's column is the zero column plus its three lanes' columns, added in order: entry (p, u) is the sum of
    the three features the card's picks name. -/
theorem card_apply (fv : FVec Ideal S8192x12 .f32) (v11 : IVec S8192x12 32) (v12 : IVec S1x12 32)
    (hv12 : ∀ k : Fin 12, v12 (ix2 (0 : Fin 1) k) = BitVec.ofNat 32 k.val)
    (z : FVec Ideal S8192x1 .f32) (hz : ∀ i, z i = 0)
    (o₁ o₂ o₃ : Nat) (h₁ : o₁ < 12) (h₂ : o₂ < 12) (h₃ : o₃ < 12)
    (hs₁ : S8192x12.Slices ![0, o₁] S8192x1) (hs₂ : S8192x12.Slices ![0, o₂] S8192x1)
    (hs₃ : S8192x12.Slices ![0, o₃] S8192x1) (p : Fin 8192) (u : Fin 1) :
    addf (addf (addf z (laneCol fv v11 v12 o₁ hs₁)) (laneCol fv v11 v12 o₂ hs₂)) (laneCol fv v11 v12 o₃ hs₃) (ix2 p u)
      = Cert.Spec.pick (fun v => fv (ix2 p v)) (v11 (ix2 p (⟨o₁, h₁⟩ : Fin 12)))
        + Cert.Spec.pick (fun v => fv (ix2 p v)) (v11 (ix2 p (⟨o₂, h₂⟩ : Fin 12)))
        + Cert.Spec.pick (fun v => fv (ix2 p v)) (v11 (ix2 p (⟨o₃, h₃⟩ : Fin 12))) := by
  refine (addf_apply _ _ _).trans (congrArg₂ (· + ·) ?_ (lane_apply fv v11 v12 hv12 o₃ h₃ hs₃ p u))
  refine (addf_apply _ _ _).trans (congrArg₂ (· + ·) ?_ (lane_apply fv v11 v12 hv12 o₂ h₂ hs₂ p u))
  refine (addf_apply _ _ _).trans ?_
  rw [hz, zero_add]
  exact lane_apply fv v11 v12 hv12 o₁ h₁ hs₁ p u

/-! ## Four columns side by side -/

section Concat
variable {α : Type} (a₀ a₁ a₂ a₃ : S8192x1.Idx → α)
  (h : Shape.Concatenates [S8192x1, S8192x1, S8192x1, S8192x1] S8192x4 1) (p : Fin 8192) (c : Fin 4)

/-- Off the joined axis the index is kept; on it the piece has the one coordinate 0. -/
theorem col_idx (b : Fin S8192x1.rank) (hb : b.cast (rfl : S8192x1.rank = S8192x4.rank) ≠ (1 : Fin S8192x4.rank)) :
    ((ix2 p (0 : Fin 1) : S8192x1.Idx) b).val = ((ix2 p c : S8192x4.Idx) (b.cast rfl)).val := by
  match b with
  | ⟨0, _⟩ => rfl
  | ⟨1, _⟩ => exact absurd rfl hb

theorem concat4_0 (hc : c.val = 0) :
    concatenate S8192x4 1 [⟨S8192x1, a₀⟩, ⟨S8192x1, a₁⟩, ⟨S8192x1, a₂⟩, ⟨S8192x1, a₃⟩] h (ix2 p c) = a₀ (ix2 p 0) :=
  concatenate_apply_piece (t := S8192x4) 1 [⟨S8192x1, a₀⟩, ⟨S8192x1, a₁⟩, ⟨S8192x1, a₂⟩, ⟨S8192x1, a₃⟩] h (ix2 p c) 0 (by simp) S8192x1 a₀ rfl rfl 0 rfl (ix2 p 0) (col_idx p c) hc.symm

theorem concat4_1 (hc : c.val = 1) :
    concatenate S8192x4 1 [⟨S8192x1, a₀⟩, ⟨S8192x1, a₁⟩, ⟨S8192x1, a₂⟩, ⟨S8192x1, a₃⟩] h (ix2 p c) = a₁ (ix2 p 0) :=
  concatenate_apply_piece (t := S8192x4) 1 [⟨S8192x1, a₀⟩, ⟨S8192x1, a₁⟩, ⟨S8192x1, a₂⟩, ⟨S8192x1, a₃⟩] h (ix2 p c) 1 (by simp) S8192x1 a₁ rfl rfl 1 rfl (ix2 p 0) (col_idx p c) hc.symm

theorem concat4_2 (hc : c.val = 2) :
    concatenate S8192x4 1 [⟨S8192x1, a₀⟩, ⟨S8192x1, a₁⟩, ⟨S8192x1, a₂⟩, ⟨S8192x1, a₃⟩] h (ix2 p c) = a₂ (ix2 p 0) :=
  concatenate_apply_piece (t := S8192x4) 1 [⟨S8192x1, a₀⟩, ⟨S8192x1, a₁⟩, ⟨S8192x1, a₂⟩, ⟨S8192x1, a₃⟩] h (ix2 p c) 2 (by simp) S8192x1 a₂ rfl rfl 2 rfl (ix2 p 0) (col_idx p c) hc.symm

theorem concat4_3 (hc : c.val = 3) :
    concatenate S8192x4 1 [⟨S8192x1, a₀⟩, ⟨S8192x1, a₁⟩, ⟨S8192x1, a₂⟩, ⟨S8192x1, a₃⟩] h (ix2 p c) = a₃ (ix2 p 0) :=
  concatenate_apply_piece (t := S8192x4) 1 [⟨S8192x1, a₀⟩, ⟨S8192x1, a₁⟩, ⟨S8192x1, a₂⟩, ⟨S8192x1, a₃⟩] h (ix2 p c) 3 (by simp) S8192x1 a₃ rfl rfl 3 rfl (ix2 p 0) (col_idx p c) hc.symm

end Concat

/-! ## The stored block at an entry -/

/-- Entry (p, c) of the block a grid point stores is the sum, over card c's three picks, of the feature of row p each
    pick names. -/
theorem outBlock_apply (x0 : Vec Ideal S8192x59 .f32) (x2 : Vec Ideal S59x12 .f32) (x6 : Vec Ideal S1x12 .f32)
    (x10 : Vec Ideal S8192x12 .i32) (p : Fin 8192) (c : Fin 4) :
    outBlock (F := Ideal) x0 x2 x6 x10 (ix2 p c)
      = ∑ k : Fin 3, Cert.Spec.pick (fun v : Fin 12 => (∑ i : Fin 59, x0 (ix2 p i) * x2 (ix2 i v)) + x6 (ix2 (0 : Fin 1) v))
          (x10 (ix2 p (⟨3 * c.val + k.val, by omega⟩ : Fin 12))) := by
  have hrow : (fun v : Fin 12 => k0_pay2 (F := Ideal) x0 x2 x6 (ix2 p v))
      = fun v : Fin 12 => (∑ i : Fin 59, x0 (ix2 p i) * x2 (ix2 i v)) + x6 (ix2 (0 : Fin 1) v) :=
    funext fun v => feat_apply x0 x2 x6 p v
  have h11 : k0_pay3 (F := Ideal) x10 = x10 := shapeCast_self _ _
  rw [← hrow, Fin.sum_univ_three]
  unfold outBlock k0_pay1 k0_pay8 k0_pay9
  obtain ⟨cv, hcv⟩ := c
  have hcases : cv = 0 ∨ cv = 1 ∨ cv = 2 ∨ cv = 3 := by omega
  rcases hcases with rfl | rfl | rfl | rfl
  · refine (concat4_0 _ _ _ _ _ p _ rfl).trans ?_
    unfold k0_pay4
    refine (card_apply (k0_pay2 x0 x2 x6) (k0_pay3 x10) lanes lanes_apply _ zero_col 0 1 2 (by decide) (by decide) (by decide) _ _ _ p 0).trans ?_
    rw [h11]
    rfl
  · refine (concat4_1 _ _ _ _ _ p _ rfl).trans ?_
    unfold k0_pay6 k0_pay5
    refine (card_apply (k0_pay2 x0 x2 x6) (k0_pay3 x10) lanes lanes_apply _ zero_col 3 4 5 (by decide) (by decide) (by decide) _ _ _ p 0).trans ?_
    rw [h11]
    rfl
  · refine (concat4_2 _ _ _ _ _ p _ rfl).trans ?_
    unfold k0_pay7
    refine (card_apply (k0_pay2 x0 x2 x6) (k0_pay3 x10) lanes lanes_apply _ zero_col 6 7 8 (by decide) (by decide) (by decide) _ _ _ p 0).trans ?_
    rw [h11]
    rfl
  · refine (concat4_3 _ _ _ _ _ p _ rfl).trans ?_
    refine (card_apply (k0_pay2 x0 x2 x6) (k0_pay3 x10) lanes lanes_apply _ zero_col 9 10 11 (by decide) (by decide) (by decide) _ _ _ p 0).trans ?_
    rw [h11]
    rfl

end Cert.KernelIdeal.Blk

end
-- ==== Proof.Data.lean ====
/-
  The idealized kernel's run with its staging contents named, over the extended reals.

  The grid has 123 points; point t's activity, picks and result blocks are rows 8192·t … of their arrays, and the last
  block overhangs the arrays' end (1000000 = 122·8192 + 576): its transfers are cut to the 576 rows inside. A fetch
  leaves words nothing names in the buffer rows past the cut, and the body computes on them too; what it computes there
  is never written back. Every operation of the body works row by row, so the rows of the stored block that ARE written
  back depend only on the array rows under them (`cut_out`): that is what lets the proof data name the stored block.
  From the proof data the library's launch theorem gives the run, and the run gives the frame.
-/
import proofs.«412381_j83708912599091_2_alg».proof.Proof.Body
import proofs.«412381_j83708912599091_2_alg».proof.Proof.BlockAt
import proofs.«412381_j83708912599091_2_alg».proof.Proof.Spec
import Idealize.ShloMosaic.Lib.ValueIdx

set_option maxRecDepth 16384

noncomputable section

open scoped BigOperators

namespace Cert.KernelIdeal.Blk

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.KernelIdeal.Facts₀ Cert.KernelIdeal.Facts

local notation "𝕄" => MT nD τ sig Unit (Elt Ideal) ℕ (UR sig nD τ) ℕ

variable (m : (ℓ : Loc nD τ sig) → Buf (Elt Ideal) ℓ) (ρ : Dev nD → PrngReg)

/-! ## The grid: which rows a point's blocks hold -/

/-- The three row-blocked windows (activity, picks, result) are cut alike on the row axis and not at all on the lane axis;
    point `t`'s blocks start at row `8192·t` and their rows inside the array end by row 1000000. -/
theorem rows_alike : ∀ t : Fin cfg0.N,
    win0_0.xsize (grid0.coords t) 0 = win0_4.xsize (grid0.coords t) 0 ∧ win0_1.xsize (grid0.coords t) 0 = win0_4.xsize (grid0.coords t) 0
    ∧ win0_0.xsize (grid0.coords t) 1 = 59 ∧ win0_1.xsize (grid0.coords t) 1 = 12 ∧ win0_4.xsize (grid0.coords t) 1 = 4
    ∧ win0_0.index t 0 = t.val ∧ win0_1.index t 0 = t.val ∧ win0_4.index t 0 = t.val
    ∧ win0_0.index t 1 = 0 ∧ win0_1.index t 1 = 0 ∧ win0_4.index t 1 = 0
    ∧ t.val * 8192 + win0_4.xsize (grid0.coords t) 0 ≤ 1000000 ∧ win0_4.xsize (grid0.coords t) 0 ≤ 8192
    ∧ (t.val + 1 < 123 → win0_4.xsize (grid0.coords t) 0 = 8192) ∧ (t.val + 1 = 123 → win0_4.xsize (grid0.coords t) 0 = 576) :=
  (by decide +kernel : ∀ t : Fin grid0.N, _)

/-- The array row under row `p` of point `t`'s blocks, for a row inside the array. -/
def rowAt (t : Fin cfg0.N) (p : Nat) (hp : p < win0_4.xsize (grid0.coords t) 0) : Fin 1000000 :=
  ⟨t.val * 8192 + p, by have := (rows_alike t).2.2.2.2.2.2.2.2.2.2.2.1; omega⟩

/-! ## The blocks, read at a row inside the array -/

/-- The activity window's staging contents after a fetch, at row `p` of the block (a row inside the array) and lane
    `i`: the activity array's entry at the array row under it, whatever fills the buffer past the array's end. -/
theorem act_at (c : Dev nD) (t : Fin cfg0.N) (d : S8192x59.Idx → EReal) (p : Fin 8192)
    (hp : p.val < win0_4.xsize (grid0.coords t) 0) (i : Fin 59) :
    win0_0.fill (grid0.coords t) d (iblk m c 0 t) (ix2 p i) = V m c main_arg0 (ix2 (rowAt t p.val hp) i) := by
  have hr := rows_alike t
  have hmv : win0_0.moved (grid0.coords t) (ix2 p i) = true := (win0_0.moved_iff _ _).mpr fun a => by
    match a with
    | ⟨0, _⟩ => show p.val < win0_0.xsize (grid0.coords t) 0; rw [hr.1]; exact hp
    | ⟨1, _⟩ => show i.val < win0_0.xsize (grid0.coords t) 1; rw [hr.2.2.1]; exact i.isLt
  unfold Window.fill; rw [dif_pos hmv]
  unfold iblk
  rw [View.read_apply]
  refine congrArg (V m c main_arg0) (funext fun a => Fin.ext ?_)
  match a with
  | ⟨0, _⟩ =>
    show win0_0.index t 0 * 8192 + 1 * p.val = t.val * 8192 + p.val
    rw [hr.2.2.2.2.2.1]; omega
  | ⟨1, _⟩ =>
    show win0_0.index t 1 * 59 + 1 * i.val = i.val
    rw [hr.2.2.2.2.2.2.2.2.1]; omega

/-- The picks window's likewise, over the picks laid out twelve to a row. -/
theorem pick_at (c : Dev nD) (t : Fin cfg0.N) (d : S8192x12.Idx → BitVec 32) (p : Fin 8192)
    (hp : p.val < win0_4.xsize (grid0.coords t) 0) (q : Fin 12) :
    win0_1.fill (grid0.coords t) d (iblk m c 1 t) (ix2 p q) = V m c main_v0 (ix2 (rowAt t p.val hp) q) := by
  have hr := rows_alike t
  have hmv : win0_1.moved (grid0.coords t) (ix2 p q) = true := (win0_1.moved_iff _ _).mpr fun a => by
    match a with
    | ⟨0, _⟩ => show p.val < win0_1.xsize (grid0.coords t) 0; rw [hr.2.1]; exact hp
    | ⟨1, _⟩ => show q.val < win0_1.xsize (grid0.coords t) 1; rw [hr.2.2.2.1]; exact q.isLt
  unfold Window.fill; rw [dif_pos hmv]
  unfold iblk
  rw [View.read_apply]
  refine congrArg (V m c main_v0) (funext fun a => Fin.ext ?_)
  match a with
  | ⟨0, _⟩ =>
    show win0_1.index t 0 * 8192 + 1 * p.val = t.val * 8192 + p.val
    rw [hr.2.2.2.2.2.2.1]; omega
  | ⟨1, _⟩ =>
    show win0_1.index t 1 * 12 + 1 * q.val = q.val
    rw [hr.2.2.2.2.2.2.2.2.2.1]; omega

/-- The weights' and the bias' blocks are their whole arrays at every point. -/
theorem whole_blocks : ∀ t : Fin cfg0.N, win0_2.index t 0 = 0 ∧ win0_2.index t 1 = 0 ∧ win0_3.index t 0 = 0 ∧ win0_3.index t 1 = 0 :=
  (by decide +kernel : ∀ t : Fin grid0.N, _)

theorem wgt_at (c : Dev nD) (t : Fin cfg0.N) (i : Fin 59) (v : Fin 12) :
    iblk m c 2 t (ix2 i v) = V m c main_v1 (ix2 i v) := by
  have hw := whole_blocks t
  unfold iblk
  rw [View.read_apply]
  refine congrArg (V m c main_v1) (funext fun a => Fin.ext ?_)
  match a with
  | ⟨0, _⟩ =>
    show win0_2.index t 0 * 59 + 1 * i.val = i.val
    rw [hw.1]; omega
  | ⟨1, _⟩ =>
    show win0_2.index t 1 * 12 + 1 * v.val = v.val
    rw [hw.2.1]; omega

theorem bias_at (c : Dev nD) (t : Fin cfg0.N) (v : Fin 12) :
    iblk m c 3 t (ix2 (0 : Fin 1) v) = V m c main_v2 (ix2 (0 : Fin 1) v) := by
  have hw := whole_blocks t
  unfold iblk
  rw [View.read_apply]
  refine congrArg (V m c main_v2) (funext fun a => Fin.ext ?_)
  match a with
  | ⟨0, _⟩ =>
    show win0_3.index t 0 * 1 + 1 * 0 = 0
    rw [hw.2.2.1]
  | ⟨1, _⟩ =>
    show win0_3.index t 1 * 12 + 1 * v.val = v.val
    rw [hw.2.2.2]; omega

/-! ## What a point writes back -/

/-- One entry of the result from the arrays the region finds: row `r`, card `cc`. -/
def rowValue (A : Vec Ideal S1000000x59 .f32) (Pk : Vec Ideal S1000000x12 .i32) (Wt : Vec Ideal S59x12 .f32) (B : Vec Ideal S1x12 .f32)
    (r : Fin 1000000) (cc : Fin 4) : EReal :=
  ∑ k : Fin 3, Cert.Spec.pick (fun v : Fin 12 => (∑ i : Fin 59, A (ix2 r i) * Wt (ix2 i v)) + B (ix2 (0 : Fin 1) v))
    (Pk (ix2 r (⟨3 * cc.val + k.val, by omega⟩ : Fin 12)))

/-- The rows of the stored block that lie inside the array do not depend on what the staging buffers hold past the
    array's end: each is `rowValue` of the arrays at the array row under it (every operation of the body works
    row by row). -/
theorem cut_out (c : Dev nD) (t : Fin cfg0.N) (d0 : S8192x59.Idx → EReal) (d1 : S8192x12.Idx → BitVec 32) :
    win0_4.cut (grid0.coords t)
        (outBlock (F := Ideal) (win0_0.fill (grid0.coords t) d0 (iblk m c 0 t)) (iblk m c 2 t) (iblk m c 3 t)
          (win0_1.fill (grid0.coords t) d1 (iblk m c 1 t)))
      = fun j => rowValue (V m c main_arg0) (V m c main_v0) (V m c main_v1) (V m c main_v2)
          (rowAt t (j 0).val (j 0).isLt) ⟨(j 1).val, by have := (j 1).isLt; have h4 := (rows_alike t).2.2.2.2.1; simp only [Window.xblock] at this; omega⟩ := by
  funext j
  have hr := rows_alike t
  have h0 : (j 0).val < win0_4.xsize (grid0.coords t) 0 := (j 0).isLt
  have h1 : (j 1).val < 4 := by have := (j 1).isLt; have h4 := hr.2.2.2.2.1; simp only [Window.xblock] at this; omega
  have hx : win0_4.xinj (grid0.coords t) j = ix2 (⟨(j 0).val, by have := hr.2.2.2.2.2.2.2.2.2.2.2.2.1; omega⟩ : Fin 8192) (⟨(j 1).val, h1⟩ : Fin 4) := by
    funext a; apply Fin.ext
    match a with
    | ⟨0, _⟩ => rfl
    | ⟨1, _⟩ => rfl
  show outBlock (F := Ideal) _ _ _ _ (win0_4.xinj (grid0.coords t) j) = _
  rw [hx, outBlock_apply]
  unfold rowValue
  refine Finset.sum_congr rfl fun k _ => ?_
  rw [pick_at m c t d1 _ h0]
  refine congrArg (fun f => Cert.Spec.pick f _) (funext fun v => ?_)
  rw [bias_at m c t v]
  refine congrArg (· + _) (Finset.sum_congr rfl fun i _ => ?_)
  rw [act_at m c t d0 _ h0 i, wgt_at m c t i v]

/-! ## The proof data -/

/-- The block the body is handed for the activity window at point `t`, with zeros past the array's end; -/
def actIn (c : Dev nD) (t : Fin cfg0.N) : S8192x59.Idx → EReal :=
  win0_0.fill (grid0.coords t) (fun _ => (0 : EReal)) (iblk m c 0 t)
/-- and for the picks window. -/
def pickIn (c : Dev nD) (t : Fin cfg0.N) : S8192x12.Idx → BitVec 32 :=
  win0_1.fill (grid0.coords t) (fun _ => (0#32 : BitVec 32)) (iblk m c 1 t)

/-- The proof data: the arrays as the region finds them; after the body at point `t` the four input buffers at their
    blocks (the two row-blocked ones filled out with zeros past the array's end, where nothing is stated) and the
    result's at the block the body computes from those; the class's invariant; full shares; nothing owed. -/
def dats (_ : Fin 1) (c : Dev nD) : Dat τ (Elt Ideal) Unit ℕ (UR sig nD τ) ℕ cfg0 c where
  A w := V m c (Pipeline.arrRef spec0 w)
  after w t := match w with
    | ⟨0, _⟩ => actIn m c t
    | ⟨1, _⟩ => pickIn m c t
    | ⟨2, _⟩ => iblk m c 2 t
    | ⟨3, _⟩ => iblk m c 3 t
    | ⟨4, _⟩ => outBlock (F := Ideal) (actIn m c t) (iblk m c 2 t) (iblk m c 3 t) (pickIn m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = actIn m c t := by dsimp only [dats]
theorem after0_1 (c : Dev nD) (t : Fin cfg0.N) : (dats m 0 c).after 1 t = pickIn m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outBlock (F := Ideal) (actIn m c t) (iblk m c 2 t) (iblk m c 3 t) (pickIn m c t) := by dsimp only [dats]

/-- The two row-blocked inputs are fetched at every point: the body finds the block on the rows inside the array and
    whatever the fetch left (`d`) past its end; -/
theorem before0_0 (c : Dev nD) (t : Fin cfg0.N) (d) :
    (dats m 0 c).before 0 t d = win0_0.fill (grid0.coords t) d (iblk m c 0 t) := by
  unfold Dat.before; rw [if_pos (fetch0_0 t)]
  unfold Dat.fetched Dat.blockOf iblk; rw [A_eq]
theorem before0_1 (c : Dev nD) (t : Fin cfg0.N) (d) :
    (dats m 0 c).before 1 t d = win0_1.fill (grid0.coords t) d (iblk m c 1 t) := by
  unfold Dat.before; rw [if_pos (fetch0_1 t)]
  unfold Dat.fetched Dat.blockOf iblk; rw [A_eq]
/-- the weights and the bias are fetched once and stay. -/
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

theorem body_obligation (c : Dev nD) : BodyObligationLoose (dats m 0 c) (defs₀ (F := Ideal)) Variants.none () Set.univ := fun t => by
  rw [bigSep_W0]
  try rw [bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before0_0 m c t d0, before0_1 m c t d1, before0_2 m c t d2, before0_3 m c t d3]
  iapply (sound_kernel (F := Ideal) c Set.univ (grid0.coords t) _ _ _ _ _ _ _ _ _ _
    (win0_0.fill (grid0.coords t) d0 (iblk m c 0 t)) (win0_1.fill (grid0.coords t) d1 (iblk m c 1 t)) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  rw [after0_0, after0_1, after0_2, after0_3, after0_4]
  have hx : win0_0.cut (grid0.coords t) (actIn m c t) = iblk m c 0 t := win0_0.cut_fill _ _ _
  have hy : win0_1.cut (grid0.coords t) (pickIn m c t) = iblk m c 1 t := win0_1.cut_fill _ _ _
  have hs : win0_4.cut (grid0.coords t)
        (outBlock (F := Ideal) (win0_0.fill (grid0.coords t) d0 (iblk m c 0 t)) (iblk m c 2 t) (iblk m c 3 t)
          (win0_1.fill (grid0.coords t) d1 (iblk m c 1 t)))
      = win0_4.cut (grid0.coords t) (outBlock (F := Ideal) (actIn m c t) (iblk m c 2 t) (iblk m c 3 t) (pickIn m c t)) := by
    unfold actIn pickIn; rw [cut_out, cut_out]
  isplitl [H0]
  · iexists d0
    change _ ⊢ owns (c : Thread nD τ) (stage0_0 (cfg0.slots t 0)) fullShare
      (win0_0.fill (grid0.coords t) d0 (win0_0.cut (grid0.coords t) (actIn m c t)))
    rw [hx]; try iexact H0
  isplitl [H1]
  · iexists d1
    change _ ⊢ owns (c : Thread nD τ) (stage0_1 (cfg0.slots t 1)) fullShare
      (win0_1.fill (grid0.coords t) d1 (win0_1.cut (grid0.coords t) (pickIn m c t)))
    rw [hy]; try iexact H1
  isplitl [H2]; · iexact H2
  isplitl [H3]; · iexact H3
  iexists (outBlock (F := Ideal) (win0_0.fill (grid0.coords t) d0 (iblk m c 0 t)) (iblk m c 2 t) (iblk m c 3 t)
    (win0_1.fill (grid0.coords t) d1 (iblk m c 1 t)))
  change _ ⊢ owns (c : Thread nD τ) (stage0_4 (cfg0.slots t 4)) fullShare
    (win0_4.fill (grid0.coords t) _ (win0_4.cut (grid0.coords t)
      (outBlock (F := Ideal) (actIn m c t) (iblk m c 2 t) (iblk m c 3 t) (pickIn m c t))))
  rw [win0_4.fill_congr_cut (grid0.coords t) hs]
  try iexact H4

/-! ## The run and the frame -/

set_option backward.isDefEq.respectTransparency.types false in
/-- Every weakly fair execution of @main ends; every windowed array then holds what the proof data compute (an
    input its entry contents, the result those overwritten block by block), every other buffer what the region found. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame of the idealized kernel: it runs to the end and leaves the four arguments as they were. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Blk

end
-- ==== Proof.HostArrays.lean ====
/-
  The arrays the region finds, from the arrays as launched, and with them one entry of the result.

  Before the region the host lays the picks [1000000, 4, 3] out twelve to a row, so word 3·cc + k of row r is pick k of
  card cc; transposes the weights [12, 59], so entry (i, v) is the weights' (v, i); and makes the bias [12] one row.
  The activity array is untouched. Put through these, an entry (r, cc) of the result — the sum over the card's three
  words of the feature of row r each names — is the card's value of the specification at (r, cc).
-/
import proofs.«412381_j83708912599091_2_alg».proof.Proof.Data
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

open scoped BigOperators

namespace Cert.KernelIdeal.Blk

open Cert.KernelIdeal Cert.KernelIdeal.Gen Idealize.ShloMosaic Idealize.ShloMosaic.TcCoe Idealize.ShloMosaic.Tactic
open Idealize.ShloMosaic.ValueIdx Idealize.SL.Sem
open Cert.KernelIdeal.Facts₀ Cert.KernelIdeal.Facts

variable (m : (ℓ : Loc nD τ sig) → Buf (Elt Ideal) ℓ)

/-! ## The arrays the region finds, from the arrays as launched -/

/-- The picks the region finds are the launched picks laid out twelve to a row. -/
theorem picks_host (c : Dev nD) :
    (V m c main_v0 : S1000000x12.Idx → BitVec 32)
      = shapeCast S1000000x12 (m ((c.tc : Thread nD τ).loc main_arg1)) Facts₀.shapeCasts_S1000000x4x3_S1000000x12 := by
  dsimp only [Gen.V, Gen.hostOps0]
  after_results
  rfl

/-- The weights the region finds are the launched weights transposed. -/
theorem wgt_host (c : Dev nD) :
    (V m c main_v1 : S59x12.Idx → EReal)
      = transpose S59x12 [1, 0] (m ((c.tc : Thread nD τ).loc main_arg2)) Facts₀.transposes_S12x59_S59x12_1_0 := by
  dsimp only [Gen.V, Gen.hostOps0]
  after_results

/-- The bias the region finds is the launched bias as one row. -/
theorem bias_host (c : Dev nD) :
    (V m c main_v2 : S1x12.Idx → EReal)
      = shapeCast S1x12 (m ((c.tc : Thread nD τ).loc main_arg3)) Facts₀.shapeCasts_S12_S1x12 := by
  dsimp only [Gen.V, Gen.hostOps0]
  after_results
  rfl

/-- Word 3·cc + k of row r is pick k of card cc of row r. -/
theorem picks_host_apply (c : Dev nD) (r : Fin 1000000) (cc : Fin 4) (k : Fin 3) :
    V m c main_v0 (ix2 r (⟨3 * cc.val + k.val, by omega⟩ : Fin 12)) = (m ((c.tc : Thread nD τ).loc main_arg1)) (ix3 r cc k) := by
  refine (congrFun (picks_host m c) _).trans ?_
  refine shapeCast_apply (s := S1000000x4x3) (t := S1000000x12) _ _ _ (ix3 r cc k) ?_
  rw [Shape.rowMajor_val_three, Shape.rowMajor_val_two]
  show (r.val * 4 + cc.val) * 3 + k.val = r.val * 12 + (3 * cc.val + k.val)
  omega

/-- Entry (i, v) of the transposed weights is entry (v, i) of the weights. -/
theorem wgt_host_apply (c : Dev nD) (i : Fin 59) (v : Fin 12) :
    V m c main_v1 (ix2 i v) = (m ((c.tc : Thread nD τ).loc main_arg2)) (ix2 v i) :=
  (congrFun (wgt_host m c) _).trans (transpose_ix2_apply _ _ i v)

/-- Entry (0, v) of the bias row is entry v of the bias. -/
theorem bias_host_apply (c : Dev nD) (v : Fin 12) :
    V m c main_v2 (ix2 (0 : Fin 1) v) = (m ((c.tc : Thread nD τ).loc main_arg3)) (ix1 v) :=
  (congrFun (bias_host m c) _).trans (shapeCast_a_1a_apply _ _ 0 v)

/-! ## One entry of the result, from the arrays as launched -/

/-- With the picks laid out twelve to a row, the weights transposed and the bias as one row, an entry of the result is
    the card's value: the sum over its three picks of the feature each names. -/
theorem rowValue_of (A : Vec Ideal S1000000x59 .f32) (Pk : Vec Ideal S1000000x12 .i32) (Wt : Vec Ideal S59x12 .f32)
    (B : Vec Ideal S1x12 .f32)
    (act : (⟨2, ![1000000, 59]⟩ : Shape).Idx → EReal) (picks : (⟨3, ![1000000, 4, 3]⟩ : Shape).Idx → BitVec 32)
    (wgt : (⟨2, ![12, 59]⟩ : Shape).Idx → EReal) (bias : (⟨1, ![12]⟩ : Shape).Idx → EReal)
    (hA : A = act)
    (hP : ∀ (r : Fin 1000000) (cc : Fin 4) (k : Fin 3),
      Pk (ix2 r (⟨3 * cc.val + k.val, by omega⟩ : Fin 12)) = picks (ix3 r cc k))
    (hW : ∀ (i : Fin 59) (v : Fin 12), Wt (ix2 i v) = wgt (ix2 v i))
    (hB : ∀ v : Fin 12, B (ix2 (0 : Fin 1) v) = bias (ix1 v)) (r : Fin 1000000) (cc : Fin 4) :
    rowValue A Pk Wt B r cc = Cert.Spec.cardValues act picks wgt bias (ix2 r cc) := by
  subst hA
  unfold rowValue Cert.Spec.cardValues
  refine Finset.sum_congr rfl fun k _ => ?_
  have hf : (fun v : Fin 12 => (∑ i : Fin 59, A (ix2 r i) * Wt (ix2 i v)) + B (ix2 (0 : Fin 1) v))
      = Cert.Spec.feat A wgt bias r := funext fun v => by
    unfold Cert.Spec.feat
    rw [hB]
    refine congrArg (· + bias (ix1 v)) (Finset.sum_congr rfl fun i _ => ?_)
    rw [hW]
  rw [hf, hP]

/-- At the arrays the region finds: entry (r, cc) of the result is the specification's card value there. -/
theorem rowValue_eq (c : Dev nD) (r : Fin 1000000) (cc : Fin 4) :
    rowValue (V m c main_arg0) (V m c main_v0) (V m c main_v1) (V m c main_v2) r cc
      = Cert.Spec.cardValues (m ((c.tc : Thread nD τ).loc main_arg0)) (m ((c.tc : Thread nD τ).loc main_arg1))
          (m ((c.tc : Thread nD τ).loc main_arg2)) (m ((c.tc : Thread nD τ).loc main_arg3)) (ix2 r cc) :=
  rowValue_of _ _ _ _ _ _ _ _ (V_main_arg0 m c) (picks_host_apply m c) (wgt_host_apply m c) (bias_host_apply m c) r cc

end Cert.KernelIdeal.Blk

end
-- ==== Proof.Final.lean ====
/-
  From blocks to the array. What each grid point writes back is its block of ONE function of the arguments, the card
  values; the 123 blocks (122 of 8192 rows and a last one of 576) cover the result's 1000000 rows; so the result array
  ends at the card values, whatever order the write-backs land in and whatever the body computed past the array's end.
-/
import proofs.«412381_j83708912599091_2_alg».proof.Proof.Data
import proofs.«412381_j83708912599091_2_alg».proof.Proof.HostArrays

set_option maxRecDepth 16384

noncomputable section

open scoped BigOperators

namespace Cert.KernelIdeal.Blk

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal.Facts₀ Cert.KernelIdeal.Facts

variable (m : (ℓ : Loc nD τ sig) → Buf (Elt Ideal) ℓ) (ρ : Dev nD → PrngReg)

/-- The card values of the four arguments: what the result array is shown to end at. -/
abbrev target (c : Dev nD) : S1000000x4.Idx → EReal :=
  Cert.Spec.cardValues (m ((c.tc : Thread nD τ).loc main_arg0)) (m ((c.tc : Thread nD τ).loc main_arg1))
    (m ((c.tc : Thread nD τ).loc main_arg2)) (m ((c.tc : Thread nD τ).loc main_arg3))

/-- What point `t` writes back is its block of the card values: row `p` of the block lies over array row `8192·t + p`. -/
theorem flushed_eq (c : Dev nD) (t : Fin cfg0.N) :
    (dats m 0 c).flushed 4 t = ((cfg0.win 4).blk t).view.read (Elt Ideal) (target m c) := by
  show win0_4.cut (grid0.coords t) ((dats m 0 c).after 4 t) = _
  rw [after0_4]; unfold actIn pickIn; rw [cut_out]
  have hr := rows_alike t
  funext j
  rw [View.read_apply, rowValue_eq]
  refine congrArg (target m c) (funext fun a => Fin.ext ?_)
  match a with
  | ⟨0, _⟩ =>
    show t.val * 8192 + (j 0).val = win0_4.index t 0 * 8192 + 1 * (j 0).val
    rw [hr.2.2.2.2.2.2.2.1]; omega
  | ⟨1, _⟩ =>
    show (j 1).val = win0_4.index t 1 * 4 + 1 * (j 1).val
    rw [hr.2.2.2.2.2.2.2.2.2.2.1]; omega

/-- An index of the result array lies in point `t`'s block iff, axis by axis, it is among the block's coordinates inside the array. -/
theorem mem_blk (t : Fin cfg0.N) (i : S1000000x4.Idx) :
    i ∈ ((cfg0.win 4).blk t).view.set ↔ ∀ a, win0_4.index t a * win0_4.size a ≤ (i a).val
      ∧ (i a).val < win0_4.index t a * win0_4.size a + win0_4.xsize (grid0.coords t) a := by
  show i ∈ ((View.whole main_v3).slice (win0_4.rect t)).set ↔ _
  rw [View.set_slice_whole, Rect.mem_set_unit]

/-- Every row of the result lies in some point's block: row `r` in that of point `r / 8192` (the last block's 576 rows
    inside the array reach row 999999). -/
theorem cover (i : S1000000x4.Idx) : ∃ t : Fin cfg0.N, (cfg0.win 4).flush t = true ∧ i ∈ ((cfg0.win 4).blk t).view.set := by
  have h0 : (i 0).val < 1000000 := (i 0).isLt
  have h1 : (i 1).val < 4 := (i 1).isLt
  refine ⟨⟨(i 0).val / 8192, by show (i 0).val / 8192 < 123; omega⟩, flush0_4 _, ?_⟩
  rw [mem_blk]
  have hr := rows_alike ⟨(i 0).val / 8192, by show (i 0).val / 8192 < 123; omega⟩
  intro a
  match a with
  | ⟨0, _⟩ =>
    show win0_4.index _ 0 * 8192 ≤ (i 0).val ∧ (i 0).val < win0_4.index _ 0 * 8192 + win0_4.xsize _ 0
    rw [hr.2.2.2.2.2.2.2.1]
    by_cases hl : (i 0).val / 8192 + 1 < 123
    · rw [hr.2.2.2.2.2.2.2.2.2.2.2.2.2.1 hl]; show (i 0).val / 8192 * 8192 ≤ _ ∧ _ < (i 0).val / 8192 * 8192 + 8192; omega
    · rw [hr.2.2.2.2.2.2.2.2.2.2.2.2.2.2 (by show (i 0).val / 8192 + 1 = 123; omega)]
      show (i 0).val / 8192 * 8192 ≤ _ ∧ _ < (i 0).val / 8192 * 8192 + 576; omega
  | ⟨1, _⟩ =>
    show win0_4.index _ 1 * 4 ≤ (i 1).val ∧ (i 1).val < win0_4.index _ 1 * 4 + win0_4.xsize _ 1
    rw [hr.2.2.2.2.2.2.2.2.2.2.1, hr.2.2.2.2.1]; omega

/-- The result array after the run is the card values of the arguments. -/
theorem final_array (c : Dev nD) : (dats m 0 c).arrAt 4 cfg0.N = target m c :=
  (dats m 0 c).arrAt_eq_of_cover 4 (target m c) (fun t _ => flushed_eq m c t) cover

/-- The idealized kernel's run with its result named: every weakly fair execution of @main ends with the result array at the
    card values of the arguments and the arguments as they were. -/
theorem run_value : θ_run defs (onTc (τ := τ) (main (F := Ideal))) ⟨m, fun _ => 0, ρ⟩ (fun r => ∀ c : Dev nD,
      r.2.mem ((c.tc : Thread nD τ).loc main_v3) = target m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 4).trans (final_array m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.KernelIdeal.Blk

end
-- ==== Proof.RefImports.lean ====
/-
  The reference's run, read one operation at a time (generated), opened here for the hand proof of its value.
-/
import proofs.«412381_j83708912599091_2_alg».proof.Proof.Gen.ReferenceIdeal.Run
import proofs.«412381_j83708912599091_2_alg».proof.Proof.Gen.ReferenceIdeal.Read
import proofs.«412381_j83708912599091_2_alg».proof.Proof.Spec
-- ==== Proof.RefValue.lean ====
/-
  The reference's value.

  The reference projects each row of the activity matrix onto twelve features (inner product with a weight row, plus a
  bias), then reads, for card c of row r and each of its three picks, the feature the pick names, through a gather whose
  start index is the pair (row number, pick), and sums the three.

  Before the gather both coordinates are normalised the way negative indices are (index + extent when the index is
  negative), and the gather reads each coordinate signed and clamps it so the slice of one element fits. A row number is
  below 2³¹, and a pick that denotes a number below twelve is too, so neither is negative: the normalisation is the
  identity on them, and so is the clamp into [0, 999999] (resp. [0, 11]). The gathered entry at (r, c, k) is therefore
  feature picks[r, c, k] of row r, and the reduce adds the three to the initial value zero.

  The picks' range comes out of the precondition: its last two conjuncts say that every pick, read signed, is at least 0
  and below 12; such a word denotes a number below 12.
-/
import proofs.«412381_j83708912599091_2_alg».proof.Proof.RefImports
import proofs.«412381_j83708912599091_2_alg».proof.Proof.Gen.Pre_finite_inputs
import Idealize.ShloMosaic.Lib.ReduceAll
import Idealize.ShloMosaic.Lib.StableHlo.Predicate

noncomputable section

open scoped BigOperators

namespace Cert.ReferenceIdeal.RefValue

open Cert.ReferenceIdeal Cert.ReferenceIdeal.Gen Idealize.ShloMosaic Idealize.ShloMosaic.ValueIdx

/-! ## The picks' range, out of the precondition -/

/-- The scalar shape has one index. -/
local instance : Subsingleton S_.Idx := ⟨fun a b => funext fun d => d.elim0⟩

/-- A 32-bit word that is at least 0 and below 12 read signed denotes a number below 12. -/
theorem toNat_lt_of_signed (w : BitVec 32) (h0 : IntOp.cmpi .sge w 0#32 = 1#1) (h12 : IntOp.cmpi .slt w 12#32 = 1#1) :
    w.toNat < 12 := by
  unfold IntOp.cmpi at h0 h12
  rw [StableHlo.Predicate.ofBool_eq_one_iff] at h0 h12
  simp only [BitVec.slt, BitVec.sle, decide_eq_true_eq] at h0 h12
  have h32 := w.isLt
  have hc := BitVec.toInt_eq_toNat_cond w
  have e0 : (0#32 : BitVec 32).toInt = 0 := by decide
  have e12 : (12#32 : BitVec 32).toInt = 12 := by decide
  rw [e0] at h0
  rw [e12] at h12
  split at hc <;> omega

/-- Under the precondition every pick denotes a number below 12: the precondition is a conjunction of five "for all
    entries" statements, the last two being 0 ≤ pick and pick < 12, signed. -/
theorem range_of_pre (na : FVec Ideal S1000000x59 .f32) (picks : IVec S1000000x4x3 32) (wgt : FVec Ideal S12x59 .f32) (bias : FVec Ideal S12 .f32)
    (h : Cert.Pre_finite_inputs.fn (F := Ideal) na picks wgt bias = fun _ => 1#1) : ∀ i, (picks i).toNat < 12 := by
  intro i
  have e := congrFun h ValueIdx.ix0
  dsimp only [Cert.Pre_finite_inputs.fn, Cert.Pre_finite_inputs.fn_part1] at e
  have andi_at : ∀ (a b : IVec Cert.Pre_finite_inputs.S_ 1), andi a b ix0 = IntOp.andi (a ix0) (b ix0) := fun _ _ => rfl
  simp only [andi_at, IntOp.andi_eq_one] at e
  obtain ⟨⟨-, hge⟩, hlt⟩ := e
  have hge' := Host.reduce_andi_all _ _ _ _ ix0 hge i
  have hlt' := Host.reduce_andi_all _ _ _ _ ix0 hlt i
  refine toNat_lt_of_signed (picks i) ?_ ?_
  · refine Eq.trans ?_ hge'
    show IntOp.cmpi .sge (picks i) 0#32 = IntOp.cmpi .sge (picks i) _
    rw [StableHlo.Predicate.bcast_scalar _ Cert.Pre_finite_inputs.Gen.h_S_]
    rfl
  · refine Eq.trans ?_ hlt'
    show IntOp.cmpi .slt (picks i) 12#32 = IntOp.cmpi .slt (picks i) _
    rw [StableHlo.Predicate.bcast_scalar _ Cert.Pre_finite_inputs.Gen.h_S_]
    rfl

/-! ## Words -/

/-- A word below 2³¹ is not negative read signed: the signed comparison with zero fails. -/
theorem slt_zero_of_lt (w : BitVec 32) (hw : w.toNat < 2 ^ 31) : IntOp.cmpi .slt w 0#32 = 0#1 :=
  eq_zero_of_ne_one fun h1 => by
    have h := (StableHlo.Predicate.slt_iff_toNat hw (by decide)).1 h1
    have z : (0#32 : BitVec 32).toNat = 0 := rfl
    omega

/-- Wrapping negative indices around (index + n when the index is negative) leaves a word below 2³¹ alone. -/
theorem wrap_of_lt (w n : BitVec 32) (hw : w.toNat < 2 ^ 31) :
    Scalar.select (IntOp.cmpi .slt w 0#32) (IntOp.addi w n) w = w := by
  rw [slt_zero_of_lt w hw, select_zero]

/-- The row a start coordinate selects among n: the word read signed and clamped into [0, n - 1]. -/
def clampRow (n : Nat) (hn : 0 < n) (w : BitVec 32) : Fin n := ⟨min w.toInt.toNat (n - 1), by omega⟩

/-- A word that denotes a number below n (n at most 2³¹) selects that row: neither the signed reading nor the clamp changes it. -/
theorem clampRow_of_lt (n : Nat) (hn : 0 < n) (hn' : n ≤ 2 ^ 31) (w : BitVec 32) (hw : w.toNat < n) :
    clampRow n hn w = ⟨w.toNat, hw⟩ := by
  apply Fin.ext
  show min w.toInt.toNat (n - 1) = w.toNat
  rw [StableHlo.Predicate.toInt_eq_toNat_of_lt (by omega)]
  simp only [Int.toNat_natCast]
  omega

/-- The word of a row number selects that row. -/
theorem clampRow_ofNat (n : Nat) (hn : 0 < n) (hn' : n ≤ 2 ^ 31) (r : Fin n) : clampRow n hn (BitVec.ofNat 32 r.val) = r := by
  have hr := r.isLt
  have e : (BitVec.ofNat 32 r.val).toNat = r.val := by
    rw [BitVec.toNat_ofNat]; exact Nat.mod_eq_of_lt (by omega)
  rw [clampRow_of_lt n hn hn' _ (by rw [e]; exact hr)]
  exact Fin.ext e

/-! ## The gather at an index -/

abbrev gd : GatherDims S1000000x12 S1000000x4x3x2 S1000000x4x3 := gather_S1000000x12_S1000000x4x3x2_S1000000x4x3_n_01_n_n_01_3_11

/-- Result index (r, c, k) reads component p of its start index at (r, c, k, p) of the index array: the three result axes
    are batch axes, in order, and the index vector lies along the last axis. -/
theorem siIdx_at (r : Fin 1000000) (c : Fin 4) (k : Fin 3) (p : Fin gd.startIndexMap.length) (p' : Fin 2) (hp : p.val = p'.val) :
    gd.siIdx (ix3 r c k) p = (ix4 r c k p' : S1000000x4x3x2.Idx) := by
  funext b
  apply Fin.ext
  match b with
  | ⟨0, _⟩ => rfl
  | ⟨1, _⟩ => rfl
  | ⟨2, _⟩ => rfl
  | ⟨3, _⟩ => exact hp

/-- The gather at (r, c, k): both operand axes are collapsed and start-indexed with a slice of one, so the operand is read at
    (first start coordinate clamped into the rows, second start coordinate clamped into the columns). -/
theorem gather_at {α : Type} (x : S1000000x12.Idx → α) (idx : IVec S1000000x4x3x2 32) (r : Fin 1000000) (c : Fin 4) (k : Fin 3) :
    Host.gather gd x idx (ix3 r c k)
      = x (ix2 (clampRow 1000000 (by decide) (idx (ix4 r c k 0))) (clampRow 12 (by decide) (idx (ix4 r c k 1)))) := by
  show x (gd.operandIdx (ix3 r c k) idx) = _
  refine congrArg x (funext fun a => Fin.ext ?_)
  have hb : ∀ a : Fin 2, a ∉ gd.operandBatchingDims := fun a => List.not_mem_nil
  have hk : ∀ a : Fin 2, a ∉ gd.sKept := fun a => by rw [GatherDims.mem_sKept]; revert a; decide
  match a with
  | ⟨0, _⟩ =>
    show gd.start (ix3 r c k) idx 0 + gd.batchCoord (ix3 r c k) 0 + gd.offCoord (ix3 r c k) 0 = min (idx (ix4 r c k 0)).toInt.toNat (1000000 - 1)
    rw [GatherDims.batchCoord_eq_zero _ _ _ (hb 0), GatherDims.offCoord_eq_zero _ _ _ (hk 0)]
    simp only [Nat.add_zero]
    unfold GatherDims.start
    rw [dif_pos (by decide)]
    exact congrArg (fun i => min (idx i).toInt.toNat (1000000 - 1)) (siIdx_at r c k _ 0 rfl)
  | ⟨1, _⟩ =>
    show gd.start (ix3 r c k) idx 1 + gd.batchCoord (ix3 r c k) 1 + gd.offCoord (ix3 r c k) 1 = min (idx (ix4 r c k 1)).toInt.toNat (12 - 1)
    rw [GatherDims.batchCoord_eq_zero _ _ _ (hb 1), GatherDims.offCoord_eq_zero _ _ _ (hk 1)]
    simp only [Nat.add_zero]
    unfold GatherDims.start
    rw [dif_pos (by decide)]
    exact congrArg (fun i => min (idx i).toInt.toNat (12 - 1)) (siIdx_at r c k _ 1 rfl)

/-! ## The start indices -/

/-- The first start coordinate at (r, c, k) is the word of the row number r: the row numbers are below 2³¹, so wrapping
    negative ones around leaves them alone. -/
theorem start_row (picks : IVec S1000000x4x3 32) (r : Fin 1000000) (c : Fin 4) (k : Fin 3) :
    Read.val_main_v19 (F := Ideal) picks (ix4 r c k 0) = BitVec.ofNat 32 r.val := by
  unfold Read.val_main_v19
  rw [concatenate_pair_apply_left (t := S1000000x4x3x2) (s₁ := S1000000x4x3x1) (s₂ := S1000000x4x3x1) (3 : Fin 4) _ _ _ (ix4 r c k 0) rfl (ix4 r c k 0)
    (fun b => by match b with | ⟨0, _⟩ => rfl | ⟨1, _⟩ => rfl | ⟨2, _⟩ => rfl | ⟨3, _⟩ => rfl)]
  rw [Read.val_main_v17_apply, Read.val_main_v16_apply, Read.val_main_v10_apply, Read.val_main_v7_apply, Read.val_main_v9_apply,
    Read.val_main_v6_apply, Read.val_main_c_apply, Read.val_main_v5_apply, Read.val_main_v4_apply]
  show Scalar.select (IntOp.cmpi .slt (BitVec.ofNat 32 r.val) 0#32) (IntOp.addi (BitVec.ofNat 32 r.val) _) (BitVec.ofNat 32 r.val) = _
  refine wrap_of_lt _ _ ?_
  rw [BitVec.toNat_ofNat]
  have := r.isLt
  omega

/-- The second start coordinate at (r, c, k) is the pick itself when the pick denotes a number below 12. -/
theorem start_col (picks : IVec S1000000x4x3 32) (hr : ∀ i, (picks i).toNat < 12) (r : Fin 1000000) (c : Fin 4) (k : Fin 3) :
    Read.val_main_v19 (F := Ideal) picks (ix4 r c k 1) = picks (ix3 r c k) := by
  unfold Read.val_main_v19
  rw [concatenate_pair_apply_right (t := S1000000x4x3x2) (s₁ := S1000000x4x3x1) (s₂ := S1000000x4x3x1) (3 : Fin 4) _ _ _ (ix4 r c k 1) rfl rfl (ix4 r c k 0)
    (fun b hb => by match b with | ⟨0, _⟩ => rfl | ⟨1, _⟩ => rfl | ⟨2, _⟩ => rfl | ⟨3, _⟩ => exact absurd rfl hb) rfl]
  rw [Read.val_main_v18_apply, Read.val_main_v15_apply, Read.val_main_v12_apply, Read.val_main_v14_apply,
    Read.val_main_v11_apply, Read.val_main_c_1_apply]
  have e : Read.idx_main_v18 (ix4 r c k (0 : Fin 1)) = ix3 r c k :=
    funext fun a => by match a with | ⟨0, _⟩ => rfl | ⟨1, _⟩ => rfl | ⟨2, _⟩ => rfl
  rw [e]
  show Scalar.select (IntOp.cmpi .slt (picks (ix3 r c k)) 0#32) (IntOp.addi (picks (ix3 r c k)) _) (picks (ix3 r c k)) = _
  refine wrap_of_lt _ _ ?_
  have := hr (ix3 r c k)
  omega

/-! ## The features -/

/-- Entry (r, v) of the projected, biased activity is feature v of row r. -/
theorem feat_at (na : FVec Ideal S1000000x59 .f32) (wgt : FVec Ideal S12x59 .f32) (bias : FVec Ideal S12 .f32) (r : Fin 1000000) (v : Fin 12) :
    Read.val_main_v3 (F := Ideal) na wgt bias (ix2 r v) = Cert.Spec.feat na wgt bias r v := by
  have el : ∀ i : Fin 59, Read.lidx_main_v0 (ix2 r v) i = ix2 r i := fun i =>
    funext fun a => by match a with | ⟨0, _⟩ => rfl | ⟨1, _⟩ => rfl
  have er : ∀ i : Fin 59, Read.ridx_main_v0 (ix2 r v) i = ix2 v i := fun i =>
    funext fun a => by match a with | ⟨0, _⟩ => rfl | ⟨1, _⟩ => rfl
  have eb : Read.idx_main_v1 (Read.idx_main_v2 (ix2 r v)) = ix1 v :=
    funext fun a => by match a with | ⟨0, _⟩ => rfl
  rw [Read.val_main_v3_apply, Read.val_main_v0_apply, Read.val_main_v2_apply, Read.val_main_v1_apply, Ideal.addf_def, eb]
  simp only [el, er]
  rfl

/-! ## The result -/

/-- With every pick denoting a number below 12, the reference's result is the card values: entry (r, c) is the sum over
    the card's three picks of the feature of row r each names. -/
theorem result_eq (na : FVec Ideal S1000000x59 .f32) (picks : IVec S1000000x4x3 32) (wgt : FVec Ideal S12x59 .f32) (bias : FVec Ideal S12 .f32)
    (hr : ∀ i, (picks i).toNat < 12) :
    Read.val_main_v21 (F := Ideal) na picks wgt bias = Cert.Spec.cardValues na picks wgt bias := by
  funext j
  obtain ⟨r, c, rfl⟩ : ∃ (r : Fin 1000000) (c : Fin 4), j = ix2 r c := ⟨j 0, j 1, eq_ix2 j⟩
  rw [Read.val_main_v21_apply, Read.val_main_cst_apply, Ideal.ofBits_def, Ideal.ofBits_zero_f32, zero_add]
  show _ = ∑ k : Fin 3, Cert.Spec.pick (Cert.Spec.feat na wgt bias r) (picks (ix3 r c k))
  refine Finset.sum_congr rfl fun k _ => ?_
  have hq : Read.idx_main_v21 (ix2 r c) k = ix3 r c k :=
    funext fun a => by match a with | ⟨0, _⟩ => rfl | ⟨1, _⟩ => rfl | ⟨2, _⟩ => rfl
  rw [hq]
  unfold Read.val_main_v20
  rw [gather_at, start_row, start_col picks hr,
    clampRow_ofNat 1000000 (by decide) (by decide) r,
    clampRow_of_lt 12 (by decide) (by decide) _ (hr _), feat_at]
  unfold Cert.Spec.pick
  rw [dif_pos (hr _)]

end Cert.ReferenceIdeal.RefValue

end
-- ==== Proof.lean ====
/-
  The certificate: a card-value kernel against its reference, over the extended reals.

  Both programs take an activity matrix [1000000, 59], picks [1000000, 4, 3] (32-bit words), weights [12, 59] and a
  bias [12]. Row r has twelve features, feat r v = (Σ_i activity[r,i] · weights[v,i]) + bias[v], and card c of row r is
  worth the sum of the features its three picks name. The kernel projects 8192 rows at a time on the matrix unit and
  selects by a one-hot row (the pick word compared with the lane numbers 0‥11, the comparison read as 0 or 1, multiplied
  in and summed along the lanes); the reference indexes the projected matrix with (row, pick) pairs. A one-hot
  selection by a word that names no lane is zero, while the reference's indexing wraps a negative pick around and clamps
  one past the end: the two agree exactly when every pick is in 0‥11, which is the stated domain of the picks (indices
  into an axis of extent 12) and is part of the precondition. Under it both results are `Cert.Spec.cardValues`; no
  finiteness is used, since a one-hot sum only multiplies by 0 and 1 and reorders additions.

  The frames: the printed kernel's from proof data that name nothing (its claim does not read the result), the
  idealized kernel's from the run with its result named, the reference's from its generated run.
-/
import proofs.«412381_j83708912599091_2_alg».proof.Defs
import proofs.«412381_j83708912599091_2_alg».proof.Proof.Gen.Kernel
import proofs.«412381_j83708912599091_2_alg».proof.Proof.Gen.KernelIdeal
import proofs.«412381_j83708912599091_2_alg».proof.Proof.Gen.ReferenceIdeal
import proofs.«412381_j83708912599091_2_alg».proof.Proof.Gen.Pre_finite_inputs
import proofs.«412381_j83708912599091_2_alg».proof.Proof.FrameBits
import proofs.«412381_j83708912599091_2_alg».proof.Proof.Final
import proofs.«412381_j83708912599091_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Blk.frame (F := Bits) m ρ

theorem frame_kernelIdeal : Cert.frame_KernelIdeal := fun m ρ _ => Cert.KernelIdeal.Blk.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result at the card values of the arguments:
    the kernel's by its run, the reference's by its run read at an index, the picks' range out of the precondition. -/
theorem algebraic : Cert.algebraic_KernelIdeal_ReferenceIdeal := by
  intro m ρ m' ρ' hpre hagree
  refine ⟨fun c => Cert.KernelIdeal.Blk.target m c, Cert.KernelIdeal.Blk.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, (hagree c).1, (hagree c).2.1, (hagree c).2.2.1, (hagree c).2.2.2]
  exact Cert.ReferenceIdeal.RefValue.result_eq _ _ _ _ (Cert.ReferenceIdeal.RefValue.range_of_pre _ _ _ _ (hpre c))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
